-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S3000000 : Shape := ⟨1, ![3000000]⟩
abbrev S60000x64 : Shape := ⟨2, ![60000, 64]⟩
abbrev S40000x64 : Shape := ⟨2, ![40000, 64]⟩
abbrev S64x64 : Shape := ⟨2, ![64, 64]⟩
abbrev S_ : Shape := ⟨0, ![]⟩

class Facts : Prop where
  bcast_S_S3000000 : S_.BroadcastsInDim S3000000 (![] : Fin 0 → Fin S3000000.rank)
  reducesTo_S3000000_S_d0 : S3000000.ReducesTo [0] S_
  h_S_ : 0 < S_.numel
  bcast_S_S60000x64 : S_.BroadcastsInDim S60000x64 (![] : Fin 0 → Fin S60000x64.rank)
  reducesTo_S60000x64_S_d0_1 : S60000x64.ReducesTo [0, 1] S_
  bcast_S_S40000x64 : S_.BroadcastsInDim S40000x64 (![] : Fin 0 → Fin S40000x64.rank)
  reducesTo_S40000x64_S_d0_1 : S40000x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg8 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : IVec S8192 32) (main_arg1 : IVec S8192 32) (main_arg2 : IVec S3000000 32) (main_arg3 : IVec S3000000 32) (main_arg4 : FVec F S3000000 .f32) (main_arg5 : FVec F S60000x64 .f32) (main_arg6 : FVec F S40000x64 .f32) (main_arg7 : FVec F S64x64 .f32) (main_arg8 : FVec F S64x64 .f32) : IVec S_ 1 :=
  let main_v0 : FVec F S3000000 .f32 := Host.absf main_arg4
  let main_cst : FVec F S_ .f32 := constant S_ .f32 0x7F800000#32
  let main_v1 : FVec F S3000000 .f32 := broadcastInDim S3000000 ![] bcast_S_S3000000 main_cst
  let main_v2 : IVec S3000000 1 := cmpf .olt main_v0 main_v1
  let main_c : IVec S_ 1 := constantI S_ 1 1#1
  let main_v3 : IVec S_ 1 := (fun x v => Host.reduce IntOp.andi x v reducesTo_S3000000_S_d0 h_S_) main_v2 main_c
  let main_v4 : FVec F S60000x64 .f32 := Host.absf main_arg5
  let main_cst_0 : FVec F S_ .f32 := constant S_ .f32 0x7F800000#32
  let main_v5 : FVec F S60000x64 .f32 := broadcastInDim S60000x64 ![] bcast_S_S60000x64 main_cst_0
  let main_v6 : IVec S60000x64 1 := cmpf .olt main_v4 main_v5
  let main_c_1 : IVec S_ 1 := constantI S_ 1 1#1
  let main_v7 : IVec S_ 1 := (fun x v => Host.reduce IntOp.andi x v reducesTo_S60000x64_S_d0_1 h_S_) main_v6 main_c_1
  let main_v8 : IVec S_ 1 := andi main_v3 main_v7
  let main_v9 : FVec F S40000x64 .f32 := Host.absf main_arg6
  let main_cst_2 : FVec F S_ .f32 := constant S_ .f32 0x7F800000#32
  let main_v10 : FVec F S40000x64 .f32 := broadcastInDim S40000x64 ![] bcast_S_S40000x64 main_cst_2
  let main_v11 : IVec S40000x64 1 := cmpf .olt main_v9 main_v10
  let main_c_3 : IVec S_ 1 := constantI S_ 1 1#1
  let main_v12 : IVec S_ 1 := (fun x v => Host.reduce IntOp.andi x v reducesTo_S40000x64_S_d0_1 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_v13 main_v16
-- ==== Kernel.lean ====
abbrev S8192 : Shape := ⟨1, ![8192]⟩
abbrev S3000000 : Shape := ⟨1, ![3000000]⟩
abbrev S60000x64 : Shape := ⟨2, ![60000, 64]⟩
abbrev S40000x64 : Shape := ⟨2, ![40000, 64]⟩
abbrev S64x64 : Shape := ⟨2, ![64, 64]⟩
abbrev S100000x64 : Shape := ⟨2, ![100000, 64]⟩
abbrev S_ : Shape := ⟨0, ![]⟩
abbrev S3014656 : Shape := ⟨1, ![3014656]⟩
abbrev S3014656x1 : Shape := ⟨2, ![3014656, 1]⟩
abbrev S3014656x64 : Shape := ⟨2, ![3014656, 64]⟩
abbrev S16384x1 : Shape := ⟨2, ![16384, 1]⟩
abbrev S16384x64 : Shape := ⟨2, ![16384, 64]⟩
abbrev S8192x1 : Shape := ⟨2, ![8192, 1]⟩
abbrev S8192x64 : Shape := ⟨2, ![8192, 64]⟩

abbrev nBuf : Space → Nat
  | .hbm => 92
  | .vmem => 23
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S3000000, .i32⟩
  | .hbm, ⟨3, _⟩ => ⟨S3000000, .i32⟩
  | .hbm, ⟨4, _⟩ => ⟨S3000000, .f32⟩
  | .hbm, ⟨5, _⟩ => ⟨S60000x64, .f32⟩
  | .hbm, ⟨6, _⟩ => ⟨S40000x64, .f32⟩
  | .hbm, ⟨7, _⟩ => ⟨S64x64, .f32⟩
  | .hbm, ⟨8, _⟩ => ⟨S64x64, .f32⟩
  | .hbm, ⟨9, _⟩ => ⟨S100000x64, .f32⟩
  | .hbm, ⟨10, _⟩ => ⟨S_, .i32⟩
  | .hbm, ⟨11, _⟩ => ⟨S_, .i32⟩
  | .hbm, ⟨12, _⟩ => ⟨S3014656, .i32⟩
  | .hbm, ⟨13, _⟩ => ⟨S_, .i32⟩
  | .hbm, ⟨14, _⟩ => ⟨S_, .i32⟩
  | .hbm, ⟨15, _⟩ => ⟨S3014656, .i32⟩
  | .hbm, ⟨16, _⟩ => ⟨S_, .f32⟩
  | .hbm, ⟨17, _⟩ => ⟨S_, .f32⟩
  | .hbm, ⟨18, _⟩ => ⟨S3014656, .f32⟩
  | .hbm, ⟨19, _⟩ => ⟨S3014656x1, .f32⟩
  | .hbm, ⟨20, _⟩ => ⟨S_, .i32⟩
  | .hbm, ⟨21, _⟩ => ⟨S3014656, .i32⟩
  | .hbm, ⟨22, _⟩ => ⟨S3014656, .i1⟩
  | .hbm, ⟨23, _⟩ => ⟨S_, .i32⟩
  | .hbm, ⟨24, _⟩ => ⟨S3014656, .i32⟩
  | .hbm, ⟨25, _⟩ => ⟨S3014656, .i32⟩
  | .hbm, ⟨26, _⟩ => ⟨S3014656, .i32⟩
  | .hbm, ⟨27, _⟩ => ⟨S3014656x1, .i32⟩
  | .hbm, ⟨28, _⟩ => ⟨S3014656x64, .f32⟩
  | .hbm, ⟨29, _⟩ => ⟨S3014656x64, .f32⟩
  | .hbm, ⟨30, _⟩ => ⟨S_, .f32⟩
  | .hbm, ⟨31, _⟩ => ⟨S100000x64, .f32⟩
  | .hbm, ⟨32, _⟩ => ⟨S3014656x1, .i32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S3014656, .i32⟩
  | .hbm, ⟨37, _⟩ => ⟨S3014656, .i1⟩
  | .hbm, ⟨38, _⟩ => ⟨S_, .i32⟩
  | .hbm, ⟨39, _⟩ => ⟨S3014656, .i32⟩
  | .hbm, ⟨40, _⟩ => ⟨S3014656, .i32⟩
  | .hbm, ⟨41, _⟩ => ⟨S3014656, .i32⟩
  | .hbm, ⟨42, _⟩ => ⟨S3014656x1, .i32⟩
  | .hbm, ⟨43, _⟩ => ⟨S3014656x64, .f32⟩
  | .hbm, ⟨44, _⟩ => ⟨S3014656x64, .f32⟩
  | .hbm, ⟨45, _⟩ => ⟨S_, .f32⟩
  | .hbm, ⟨46, _⟩ => ⟨S100000x64, .f32⟩
  | .hbm, ⟨47, _⟩ => ⟨S3014656x1, .i32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S3014656, .i32⟩
  | .hbm, ⟨52, _⟩ => ⟨S3014656, .i1⟩
  | .hbm, ⟨53, _⟩ => ⟨S_, .i32⟩
  | .hbm, ⟨54, _⟩ => ⟨S3014656, .i32⟩
  | .hbm, ⟨55, _⟩ => ⟨S3014656, .i32⟩
  | .hbm, ⟨56, _⟩ => ⟨S3014656, .i32⟩
  | .hbm, ⟨57, _⟩ => ⟨S3014656x1, .i32⟩
  | .hbm, ⟨58, _⟩ => ⟨S3014656x64, .f32⟩
  | .hbm, ⟨59, _⟩ => ⟨S3014656x64, .f32⟩
  | .hbm, ⟨60, _⟩ => ⟨S_, .f32⟩
  | .hbm, ⟨61, _⟩ => ⟨S100000x64, .f32⟩
  | .hbm, ⟨62, _⟩ => ⟨S3014656x1, .i32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S60000x64, .f32⟩
  | .hbm, ⟨69, _⟩ => ⟨S40000x64, .f32⟩
  | .hbm, ⟨70, _⟩ => ⟨S_, .i32⟩
  | .hbm, ⟨71, _⟩ => ⟨S8192, .i32⟩
  | .hbm, ⟨72, _⟩ => ⟨S8192, .i1⟩
  | .hbm, ⟨73, _⟩ => ⟨S_, .i32⟩
  | .hbm, ⟨74, _⟩ => ⟨S8192, .i32⟩
  | .hbm, ⟨75, _⟩ => ⟨S8192, .i32⟩
  | .hbm, ⟨76, _⟩ => ⟨S8192, .i32⟩
  | .hbm, ⟨77, _⟩ => ⟨S8192x1, .i32⟩
  | .hbm, ⟨78, _⟩ => ⟨S8192x64, .f32⟩
  | .hbm, ⟨79, _⟩ => ⟨S_, .i32⟩
  | .hbm, ⟨80, _⟩ => ⟨S8192, .i32⟩
  | .hbm, ⟨81, _⟩ => ⟨S8192, .i1⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S8192, .i32⟩
  | .hbm, ⟨86, _⟩ => ⟨S8192x1, .i32⟩
  | .hbm, ⟨87, _⟩ => ⟨S8192x64, .f32⟩
  | .hbm, ⟨88, _⟩ => ⟨S64x64, .f32⟩
  | .hbm, ⟨89, _⟩ => ⟨S64x64, .f32⟩
  | .hbm, ⟨90, _⟩ => ⟨S8192x1, .f32⟩
  | .hbm, ⟨91, _⟩ => ⟨S8192, .f32⟩
  | .local _ .vmem, ⟨0, _⟩ => ⟨S16384x1, .f32⟩
  | .local _ .vmem, ⟨1, _⟩ => ⟨S16384x1, .f32⟩
  | .local _ .vmem, ⟨2, _⟩ => ⟨S16384x64, .f32⟩
  | .local _ .vmem, ⟨3, _⟩ => ⟨S16384x64, .f32⟩
  | .local _ .vmem, ⟨4, _⟩ => ⟨S16384x64, .f32⟩
  | .local _ .vmem, ⟨5, _⟩ => ⟨S16384x64, .f32⟩
  | .local _ .vmem, ⟨6, _⟩ => ⟨S16384x1, .f32⟩
  | .local _ .vmem, ⟨7, _⟩ => ⟨S16384x1, .f32⟩
  | .local _ .vmem, ⟨8, _⟩ => ⟨S16384x64, .f32⟩
  | .local _ .vmem, ⟨9, _⟩ => ⟨S16384x64, .f32⟩
  | .local _ .vmem, ⟨10, _⟩ => ⟨S16384x64, .f32⟩
  | .local _ .vmem, ⟨11, _⟩ => ⟨S16384x64, .f32⟩
  | .local _ .vmem, ⟨12, _⟩ => ⟨S16384x1, .f32⟩
  | .local _ .vmem, ⟨13, _⟩ => ⟨S16384x1, .f32⟩
  | .local _ .vmem, ⟨14, _⟩ => ⟨S16384x64, .f32⟩
  | .local _ .vmem, ⟨15, _⟩ => ⟨S16384x64, .f32⟩
  | .local _ .vmem, ⟨16, _⟩ => ⟨S16384x64, .f32⟩
  | .local _ .vmem, ⟨17, _⟩ => ⟨S16384x64, .f32⟩
  | .local _ .vmem, ⟨18, _⟩ => ⟨S8192x64, .f32⟩
  | .local _ .vmem, ⟨19, _⟩ => ⟨S8192x64, .f32⟩
  | .local _ .vmem, ⟨20, _⟩ => ⟨S64x64, .f32⟩
  | .local _ .vmem, ⟨21, _⟩ => ⟨S64x64, .f32⟩
  | .local _ .vmem, ⟨22, _⟩ => ⟨S8192x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_cst : Ref sig .tc := ⟨.hbm, 16, rfl⟩
abbrev main_call2_v0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_13 : Ref sig .tc := ⟨.hbm, 79, rfl⟩
abbrev main_v52 : Ref sig .tc := ⟨.hbm, 80, rfl⟩
abbrev main_v53 : Ref sig .tc := ⟨.hbm, 81, rfl⟩
abbrev main_c_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22

abbrev nD : Nat := 1
abbrev τ : Topo := Topo.v7x

variable {F : FTy → Type} [FloatOps F]

abbrev grid0 : Pipeline.Grid := ⟨1, ![184], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![184], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16384x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![184], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16384x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S8192x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S8192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8192x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  concatenates_S60000x64_S40000x64_S100000x64_d0 : Shape.Concatenates [S60000x64, S40000x64] S100000x64 0
  pads_S3000000_S3014656_0146560 : S3000000.Pads (![0] : Fin 1 → Nat) ![14656] ![0] S3014656
  h_S_ : 0 < S_.numel
  bcast_S3014656_S3014656x1_0 : S3014656.BroadcastsInDim S3014656x1 (![0] : Fin 1 → Fin S3014656x1.rank)
  bcast_S_S3014656 : S_.BroadcastsInDim S3014656 (![] : Fin 0 → Fin S3014656.rank)
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  broadcasts_S16384x1_S16384x64 : S16384x1.Broadcasts S16384x64
  bcast_S_S100000x64 : S_.BroadcastsInDim S100000x64 (![] : Fin 0 → Fin S100000x64.rank)
  slices_S100000x64_S60000x64_0_0 : S100000x64.Slices ![0, 0] S60000x64
  slices_S100000x64_S40000x64_60000_0 : S100000x64.Slices ![60000, 0] S40000x64
  bcast_S_S8192 : S_.BroadcastsInDim S8192 (![] : Fin 0 → Fin S8192.rank)
  bcast_S8192_S8192x1_0 : S8192.BroadcastsInDim S8192x1 (![0] : Fin 1 → Fin S8192x1.rank)
  transposes_S64x64_S64x64_1_0 : S64x64.Transposes [1, 0] S64x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S8192x64_S8192 : S8192x64.Reduces [1] S8192
  shapeCasts_S8192_S8192x1 : S8192.ShapeCasts S8192x1
  broadcasts_S8192x1_S8192x64 : S8192x1.Broadcasts S8192x64
  inb_S8192x1_S8192x1_0_0 : ∀ a, (![0, 0] : Fin 2 → Nat) a + S8192x1.size a ≤ S8192x1.size a
  h_S8192x1 : 0 < S8192x1.numel
  shapeCasts_S8192x1_S8192 : S8192x1.ShapeCasts S8192
  gather_S100000x64_S3014656x1_S3014656x64_1_0_n_n_0_1_164_wf : GatherDims.WF S100000x64 S3014656x1 S3014656x64 [1] [0] [] [0] [] 1 ![1, 64]
  scatter_S100000x64_S3014656x1_S3014656x64_1_0_0_1_wf : ScatterDims.WF S100000x64 S3014656x1 S3014656x64 [1] [0] [0] 1
  gather_S60000x64_S8192x1_S8192x64_1_0_n_n_0_1_164_wf : GatherDims.WF S60000x64 S8192x1 S8192x64 [1] [0] [] [0] [] 1 ![1, 64]
  gather_S40000x64_S8192x1_S8192x64_1_0_n_n_0_1_164_wf : GatherDims.WF S40000x64 S8192x1 S8192x64 [1] [0] [] [0] [] 1 ![1, 64]
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x1.size a ≤ S3014656x1.size a
  hwx0_0 : ∀ i : grid0.Coords, EltTy.bits .f32 = 32 ∨ (Rect.block (s := S3014656x1) S16384x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S3014656x64.size a
  hwx0_1 : ∀ i : grid0.Coords, EltTy.bits .f32 = 32 ∨ (Rect.block (s := S3014656x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S3014656x64.size a
  hwx0_2 : ∀ i : grid0.Coords, EltTy.bits .f32 = 32 ∨ (Rect.block (s := S3014656x64) S16384x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x1.size a ≤ S3014656x1.size a
  hwx1_0 : ∀ i : grid1.Coords, EltTy.bits .f32 = 32 ∨ (Rect.block (s := S3014656x1) S16384x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S3014656x64.size a
  hwx1_1 : ∀ i : grid1.Coords, EltTy.bits .f32 = 32 ∨ (Rect.block (s := S3014656x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384x64.size a ≤ S3014656x64.size a
  hwx1_2 : ∀ i : grid1.Coords, EltTy.bits .f32 = 32 ∨ (Rect.block (s := S3014656x64) S16384x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x1.size a ≤ S3014656x1.size a
  hwx2_0 : ∀ i : grid2.Coords, EltTy.bits .f32 = 32 ∨ (Rect.block (s := S3014656x1) S16384x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16384x64.size a ≤ S3014656x64.size a
  hwx2_1 : ∀ i : grid2.Coords, EltTy.bits .f32 = 32 ∨ (Rect.block (s := S3014656x64) S16384x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16384x64.size a ≤ S3014656x64.size a
  hwx2_2 : ∀ i : grid2.Coords, EltTy.bits .f32 = 32 ∨ (Rect.block (s := S3014656x64) S16384x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S8192x64.size a
  hwx3_0 : ∀ i : grid3.Coords, EltTy.bits .f32 = 32 ∨ (Rect.block (s := S8192x64) S8192x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S8192x64.size a
  hwx3_1 : ∀ i : grid3.Coords, EltTy.bits .f32 = 32 ∨ (Rect.block (s := S8192x64) S8192x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S8192x1.size a ≤ S8192x1.size a
  hwx3_4 : ∀ i : grid3.Coords, EltTy.bits .f32 = 32 ∨ (Rect.block (s := S8192x1) S8192x1.size (cc3_transform_4 i) (hinb3_4 i)).WholeWords (EltTy.packing .f32)

variable [Facts₀]

def gather_S100000x64_S3014656x1_S3014656x64_1_0_n_n_0_1_164 : GatherDims S100000x64 S3014656x1 S3014656x64 where
  offsetDims := [1]
  collapsedSliceDims := [0]
  operandBatchingDims := []
  startIndicesBatchingDims := []
  startIndexMap := [0]
  indexVectorDim := 1
  sliceSizes := ![1, 64]
  wf := gather_S100000x64_S3014656x1_S3014656x64_1_0_n_n_0_1_164_wf
def scatter_S100000x64_S3014656x1_S3014656x64_1_0_0_1 : ScatterDims S100000x64 S3014656x1 S3014656x64 where
  updateWindowDims := [1]
  insertedWindowDims := [0]
  scatterDimsToOperandDims := [0]
  indexVectorDim := 1
  wf := scatter_S100000x64_S3014656x1_S3014656x64_1_0_0_1_wf
def gather_S60000x64_S8192x1_S8192x64_1_0_n_n_0_1_164 : GatherDims S60000x64 S8192x1 S8192x64 where
  offsetDims := [1]
  collapsedSliceDims := [0]
  operandBatchingDims := []
  startIndicesBatchingDims := []
  startIndexMap := [0]
  indexVectorDim := 1
  sliceSizes := ![1, 64]
  wf := gather_S60000x64_S8192x1_S8192x64_1_0_n_n_0_1_164_wf
def gather_S40000x64_S8192x1_S8192x64_1_0_n_n_0_1_164 : GatherDims S40000x64 S8192x1 S8192x64 where
  offsetDims := [1]
  collapsedSliceDims := [0]
  operandBatchingDims := []
  startIndicesBatchingDims := []
  startIndexMap := [0]
  indexVectorDim := 1
  sliceSizes := ![1, 64]
  wf := gather_S40000x64_S8192x1_S8192x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v4) S16384x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S16384x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S16384x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S16384x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S16384x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S16384x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S16384x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S16384x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S8192x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v58) S8192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S8192x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192 : Shape := ⟨1, ![8192]⟩
abbrev S3000000 : Shape := ⟨1, ![3000000]⟩
abbrev S60000x64 : Shape := ⟨2, ![60000, 64]⟩
abbrev S40000x64 : Shape := ⟨2, ![40000, 64]⟩
abbrev S64x64 : Shape := ⟨2, ![64, 64]⟩
abbrev S100000x64 : Shape := ⟨2, ![100000, 64]⟩
abbrev S3000000x1 : Shape := ⟨2, ![3000000, 1]⟩
abbrev S_ : Shape := ⟨0, ![]⟩
abbrev S3000000x64 : Shape := ⟨2, ![3000000, 64]⟩
abbrev S8192x1 : Shape := ⟨2, ![8192, 1]⟩
abbrev S8192x64 : Shape := ⟨2, ![8192, 64]⟩

abbrev nBuf : Space → Nat
  | .hbm => 113
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S3000000, .i32⟩
  | .hbm, ⟨3, _⟩ => ⟨S3000000, .i32⟩
  | .hbm, ⟨4, _⟩ => ⟨S3000000, .f32⟩
  | .hbm, ⟨5, _⟩ => ⟨S60000x64, .f32⟩
  | .hbm, ⟨6, _⟩ => ⟨S40000x64, .f32⟩
  | .hbm, ⟨7, _⟩ => ⟨S64x64, .f32⟩
  | .hbm, ⟨8, _⟩ => ⟨S64x64, .f32⟩
  | .hbm, ⟨9, _⟩ => ⟨S100000x64, .f32⟩
  | .hbm, ⟨10, _⟩ => ⟨S3000000x1, .f32⟩
  | .hbm, ⟨11, _⟩ => ⟨S_, .i32⟩
  | .hbm, ⟨12, _⟩ => ⟨S3000000, .i32⟩
  | .hbm, ⟨13, _⟩ => ⟨S3000000, .i1⟩
  | .hbm, ⟨14, _⟩ => ⟨S_, .i32⟩
  | .hbm, ⟨15, _⟩ => ⟨S3000000, .i32⟩
  | .hbm, ⟨16, _⟩ => ⟨S3000000, .i32⟩
  | .hbm, ⟨17, _⟩ => ⟨S3000000, .i32⟩
  | .hbm, ⟨18, _⟩ => ⟨S3000000x1, .i32⟩
  | .hbm, ⟨19, _⟩ => ⟨S3000000x64, .f32⟩
  | .hbm, ⟨20, _⟩ => ⟨S3000000x64, .f32⟩
  | .hbm, ⟨21, _⟩ => ⟨S3000000x64, .f32⟩
  | .hbm, ⟨22, _⟩ => ⟨S_, .f32⟩
  | .hbm, ⟨23, _⟩ => ⟨S100000x64, .f32⟩
  | .hbm, ⟨24, _⟩ => ⟨S3000000x1, .i32⟩
  | .hbm, ⟨25, _⟩ => ⟨S100000x64, .f32⟩
  | .hbm, ⟨26, _⟩ => ⟨S100000x64, .f32⟩
  | .hbm, ⟨27, _⟩ => ⟨S3000000x1, .f32⟩
  | .hbm, ⟨28, _⟩ => ⟨S_, .i32⟩
  | .hbm, ⟨29, _⟩ => ⟨S3000000, .i32⟩
  | .hbm, ⟨30, _⟩ => ⟨S3000000, .i1⟩
  | .hbm, ⟨31, _⟩ => ⟨S_, .i32⟩
  | .hbm, ⟨32, _⟩ => ⟨S3000000, .i32⟩
  | .hbm, ⟨33, _⟩ => ⟨S3000000, .i32⟩
  | .hbm, ⟨34, _⟩ => ⟨S3000000, .i32⟩
  | .hbm, ⟨35, _⟩ => ⟨S3000000x1, .i32⟩
  | .hbm, ⟨36, _⟩ => ⟨S3000000x64, .f32⟩
  | .hbm, ⟨37, _⟩ => ⟨S3000000x64, .f32⟩
  | .hbm, ⟨38, _⟩ => ⟨S3000000x64, .f32⟩
  | .hbm, ⟨39, _⟩ => ⟨S_, .f32⟩
  | .hbm, ⟨40, _⟩ => ⟨S100000x64, .f32⟩
  | .hbm, ⟨41, _⟩ => ⟨S3000000x1, .i32⟩
  | .hbm, ⟨42, _⟩ => ⟨S100000x64, .f32⟩
  | .hbm, ⟨43, _⟩ => ⟨S100000x64, .f32⟩
  | .hbm, ⟨44, _⟩ => ⟨S3000000x1, .f32⟩
  | .hbm, ⟨45, _⟩ => ⟨S_, .i32⟩
  | .hbm, ⟨46, _⟩ => ⟨S3000000, .i32⟩
  | .hbm, ⟨47, _⟩ => ⟨S3000000, .i1⟩
  | .hbm, ⟨48, _⟩ => ⟨S_, .i32⟩
  | .hbm, ⟨49, _⟩ => ⟨S3000000, .i32⟩
  | .hbm, ⟨50, _⟩ => ⟨S3000000, .i32⟩
  | .hbm, ⟨51, _⟩ => ⟨S3000000, .i32⟩
  | .hbm, ⟨52, _⟩ => ⟨S3000000x1, .i32⟩
  | .hbm, ⟨53, _⟩ => ⟨S3000000x64, .f32⟩
  | .hbm, ⟨54, _⟩ => ⟨S3000000x64, .f32⟩
  | .hbm, ⟨55, _⟩ => ⟨S3000000x64, .f32⟩
  | .hbm, ⟨56, _⟩ => ⟨S_, .f32⟩
  | .hbm, ⟨57, _⟩ => ⟨S100000x64, .f32⟩
  | .hbm, ⟨58, _⟩ => ⟨S3000000x1, .i32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S60000x64, .f32⟩
  | .hbm, ⟨65, _⟩ => ⟨S40000x64, .f32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .i32⟩
  | .hbm, ⟨73, _⟩ => ⟨S8192x1, .i32⟩
  | .hbm, ⟨74, _⟩ => ⟨S8192x64, .f32⟩
  | .hbm, ⟨75, _⟩ => ⟨S64x64, .f32⟩
  | .hbm, ⟨76, _⟩ => ⟨S8192x64, .f32⟩
  | .hbm, ⟨77, _⟩ => ⟨S_, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192x1, .f32⟩
  | .hbm, ⟨83, _⟩ => ⟨S8192x64, .f32⟩
  | .hbm, ⟨84, _⟩ => ⟨S8192x64, .f32⟩
  | .hbm, ⟨85, _⟩ => ⟨S8192x64, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x64, .f32⟩
  | .hbm, ⟨90, _⟩ => ⟨S8192x64, .f32⟩
  | .hbm, ⟨91, _⟩ => ⟨S_, .i32⟩
  | .hbm, ⟨92, _⟩ => ⟨S8192, .i32⟩
  | .hbm, ⟨93, _⟩ => ⟨S8192, .i1⟩
  | .hbm, ⟨94, _⟩ => ⟨S_, .i32⟩
  | .hbm, ⟨95, _⟩ => ⟨S8192, .i32⟩
  | .hbm, ⟨96, _⟩ => ⟨S8192, .i32⟩
  | .hbm, ⟨97, _⟩ => ⟨S8192, .i32⟩
  | .hbm, ⟨98, _⟩ => ⟨S8192x1, .i32⟩
  | .hbm, ⟨99, _⟩ => ⟨S8192x64, .f32⟩
  | .hbm, ⟨100, _⟩ => ⟨S64x64, .f32⟩
  | .hbm, ⟨101, _⟩ => ⟨S8192x64, .f32⟩
  | .hbm, ⟨102, _⟩ => ⟨S8192x64, .f32⟩
  | .hbm, ⟨103, _⟩ => ⟨S8192x64, .f32⟩
  | .hbm, ⟨104, _⟩ => ⟨S_, .f32⟩
  | .hbm, ⟨105, _⟩ => ⟨S8192x64, .f32⟩
  | .hbm, ⟨106, _⟩ => ⟨S8192x64, .f32⟩
  | .hbm, ⟨107, _⟩ => ⟨S_, .f32⟩
  | .hbm, ⟨108, _⟩ => ⟨S8192x64, .f32⟩
  | .hbm, ⟨109, _⟩ => ⟨S8192x64, .f32⟩
  | .hbm, ⟨110, _⟩ => ⟨S8192x64, .f32⟩
  | .hbm, ⟨111, _⟩ => ⟨S_, .f32⟩
  | .hbm, ⟨112, _⟩ => ⟨S8192, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_v67 : Ref sig .tc := ⟨.hbm, 92, rfl⟩
abbrev main_v68 : Ref sig .tc := ⟨.hbm, 93, rfl⟩
abbrev main_c_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩

abbrev nD : Nat := 1
abbrev τ : Topo := Topo.v7x

variable {F : FTy → Type} [FloatOps F]

class Facts₀ : Prop where
  concatenates_S60000x64_S40000x64_S100000x64_d0 : Shape.Concatenates [S60000x64, S40000x64] S100000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S100000x64 : S_.BroadcastsInDim S100000x64 (![] : Fin 0 → Fin S100000x64.rank)
  slices_S100000x64_S60000x64_0_0 : S100000x64.Slices ![0, 0] S60000x64
  slices_S100000x64_S40000x64_60000_0 : S100000x64.Slices ![60000, 0] S40000x64
  bcast_S_S8192 : S_.BroadcastsInDim S8192 (![] : Fin 0 → Fin S8192.rank)
  bcast_S8192_S8192x1_0 : S8192.BroadcastsInDim S8192x1 (![0] : Fin 1 → Fin S8192x1.rank)
  transposes_S64x64_S64x64_1_0 : S64x64.Transposes [1, 0] S64x64
  reducesTo_S8192x64_S8192_d1 : S8192x64.ReducesTo [1] S8192
  h_S_ : 0 < S_.numel
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  gather_S100000x64_S3000000x1_S3000000x64_1_0_n_n_0_1_164_wf : GatherDims.WF S100000x64 S3000000x1 S3000000x64 [1] [0] [] [0] [] 1 ![1, 64]
  scatter_S100000x64_S3000000x1_S3000000x64_1_0_0_1_wf : ScatterDims.WF S100000x64 S3000000x1 S3000000x64 [1] [0] [0] 1
  gather_S60000x64_S8192x1_S8192x64_1_0_n_n_0_1_164_wf : GatherDims.WF S60000x64 S8192x1 S8192x64 [1] [0] [] [0] [] 1 ![1, 64]
  dot_S8192x64_S64x64_S8192x64_1_0_0_1_n_n_wf : DotDims.WF S8192x64 S64x64 S8192x64 [1] [0] [0] [1] [] []
  gather_S40000x64_S8192x1_S8192x64_1_0_n_n_0_1_164_wf : GatherDims.WF S40000x64 S8192x1 S8192x64 [1] [0] [] [0] [] 1 ![1, 64]

variable [Facts₀]

def gather_S100000x64_S3000000x1_S3000000x64_1_0_n_n_0_1_164 : GatherDims S100000x64 S3000000x1 S3000000x64 where
  offsetDims := [1]
  collapsedSliceDims := [0]
  operandBatchingDims := []
  startIndicesBatchingDims := []
  startIndexMap := [0]
  indexVectorDim := 1
  sliceSizes := ![1, 64]
  wf := gather_S100000x64_S3000000x1_S3000000x64_1_0_n_n_0_1_164_wf
def scatter_S100000x64_S3000000x1_S3000000x64_1_0_0_1 : ScatterDims S100000x64 S3000000x1 S3000000x64 where
  updateWindowDims := [1]
  insertedWindowDims := [0]
  scatterDimsToOperandDims := [0]
  indexVectorDim := 1
  wf := scatter_S100000x64_S3000000x1_S3000000x64_1_0_0_1_wf
def gather_S60000x64_S8192x1_S8192x64_1_0_n_n_0_1_164 : GatherDims S60000x64 S8192x1 S8192x64 where
  offsetDims := [1]
  collapsedSliceDims := [0]
  operandBatchingDims := []
  startIndicesBatchingDims := []
  startIndexMap := [0]
  indexVectorDim := 1
  sliceSizes := ![1, 64]
  wf := gather_S60000x64_S8192x1_S8192x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S40000x64_S8192x1_S8192x64_1_0_n_n_0_1_164 : GatherDims S40000x64 S8192x1 S8192x64 where
  offsetDims := [1]
  collapsedSliceDims := [0]
  operandBatchingDims := []
  startIndicesBatchingDims := []
  startIndexMap := [0]
  indexVectorDim := 1
  sliceSizes := ![1, 64]
  wf := gather_S40000x64_S8192x1_S8192x64_1_0_n_n_0_1_164_wf

class Facts : Prop extends Facts₀ where

variable [Facts]
-- ==== Proof.Spec.lean ====
/-
  The two programs' values as pure functions of the argument arrays, piece by piece.

  Both programs run three rounds of the same propagation step on the node table `x` (the user rows stacked on
  the item rows): every edge `e` sends `val e · x[src e, ·]` to row `dst e`, and the rows that arrive at a node
  are summed. The kernel's program first pads the three edge arrays from 3,000,000 to 3,014,656 entries (indices
  with `0`, weights with `0.0`) and multiplies weight and gathered row inside a tiled kernel; the reference
  works on the unpadded arrays and multiplies on the host. Then both average the four tables, pick the rows
  of the batch's users and items, and score each pair: softmax of the user projection times the logistic of the
  item projection, summed over the 64 features.
-/
import proofs.«168877_j50294067036541_1_alg».proof.Proof.Gen.KernelIdeal
import proofs.«168877_j50294067036541_1_alg».proof.Proof.Gen.ReferenceIdeal
import Idealize.ShloMosaic.Lib.ValueIdx

noncomputable section

namespace Cert.Spec

open Idealize.ShloMosaic

variable {F : FTy → Type} [FloatOps F]

/-! ## The kernel's program -/
namespace K
open Cert.KernelIdeal Cert.KernelIdeal.Facts₀ Cert.KernelIdeal.Facts

/-- The node table: user rows above item rows. -/
def table (eu : FVec F S60000x64 .f32) (ei : FVec F S40000x64 .f32) : FVec F S100000x64 .f32 :=
  concatenate S100000x64 0 [⟨S60000x64, eu⟩, ⟨S40000x64, ei⟩] concatenates_S60000x64_S40000x64_S100000x64_d0

/-- An integer edge array padded with zeros to 3,014,656 entries. -/
def padI (a : IVec S3000000 32) : IVec S3014656 32 :=
  pad S3014656 ![0] ![14656] ![0] a (constantI S_ 32 0#32) pads_S3000000_S3014656_0146560 h_S_

/-- The edge weights padded with `0.0`. -/
def padF (a : FVec F S3000000 .f32) : FVec F S3014656 .f32 :=
  pad S3014656 ![0] ![14656] ![0] a (constant S_ .f32 0x00000000#32) pads_S3000000_S3014656_0146560 h_S_

/-- Negative row numbers wrapped by the table's 100,000 rows, then laid out as a column of start indices. -/
def rows (src : IVec S3014656 32) : IVec S3014656x1 32 :=
  broadcastInDim S3014656x1 ![0] bcast_S3014656_S3014656x1_0
    (select (cmpi .slt src (broadcastInDim S3014656 ![] bcast_S_S3014656 (constantI S_ 32 0#32)))
      (addi src (broadcastInDim S3014656 ![] bcast_S_S3014656 (constantI S_ 32 100000#32))) src)

/-- The weight column times the gathered rows: what the tiled kernel leaves in its output array. -/
def wmul (a : FVec F S3014656x1 .f32) (g : FVec F S3014656x64 .f32) : FVec F S3014656x64 .f32 :=
  fun i => FloatOps.mulf (a (ValueIdx.ix2 (n0 := 3014656) (n1 := 1) (i 0) 0)) (g i)

/-- One propagation step over the padded edge arrays. -/
def layer (srcP dstP : IVec S3014656 32) (valP : FVec F S3014656 .f32) (x : FVec F S100000x64 .f32) : FVec F S100000x64 .f32 :=
  Host.scatterAdd scatter_S100000x64_S3014656x1_S3014656x64_1_0_0_1
    (broadcastInDim S100000x64 ![] bcast_S_S100000x64 (constant S_ .f32 0x00000000#32))
    (broadcastInDim S3014656x1 ![0] bcast_S3014656_S3014656x1_0 dstP)
    (wmul (broadcastInDim S3014656x1 ![0] bcast_S3014656_S3014656x1_0 valP)
      (Host.gather gather_S100000x64_S3014656x1_S3014656x64_1_0_n_n_0_1_164 x (rows srcP)))

/-- The average of the four tables. -/
def mean4 (x0 x1 x2 x3 : FVec F S100000x64 .f32) : FVec F S100000x64 .f32 :=
  Host.divf (addf (addf (addf x0 x1) x2) x3) (broadcastInDim S100000x64 ![] bcast_S_S100000x64 (constant S_ .f32 0x40800000#32))

/-- The batch's user rows of the averaged table. -/
def userRows (light : FVec F S100000x64 .f32) (users : IVec S8192 32) : FVec F S8192x64 .f32 :=
  Host.gather gather_S60000x64_S8192x1_S8192x64_1_0_n_n_0_1_164 (extractStridedSlice S60000x64 ![0, 0] light slices_S100000x64_S60000x64_0_0)
    (broadcastInDim S8192x1 ![0] bcast_S8192_S8192x1_0
      (select (cmpi .slt users (broadcastInDim S8192 ![] bcast_S_S8192 (constantI S_ 32 0#32)))
        (addi users (broadcastInDim S8192 ![] bcast_S_S8192 (constantI S_ 32 60000#32))) users))

/-- The batch's item rows of the averaged table. -/
def itemRows (light : FVec F S100000x64 .f32) (items : IVec S8192 32) : FVec F S8192x64 .f32 :=
  Host.gather gather_S40000x64_S8192x1_S8192x64_1_0_n_n_0_1_164 (extractStridedSlice S40000x64 ![60000, 0] light slices_S100000x64_S40000x64_60000_0)
    (broadcastInDim S8192x1 ![0] bcast_S8192_S8192x1_0
      (select (cmpi .slt items (broadcastInDim S8192 ![] bcast_S_S8192 (constantI S_ 32 0#32)))
        (addi items (broadcastInDim S8192 ![] bcast_S_S8192 (constantI S_ 32 40000#32))) items))

/-- A weight matrix transposed. -/
def tr (w : FVec F S64x64 .f32) : FVec F S64x64 .f32 := transpose S64x64 [1, 0] w transposes_S64x64_S64x64_1_0

end K

/-! ## The reference -/
namespace R
open Cert.ReferenceIdeal Cert.ReferenceIdeal.Facts₀ Cert.ReferenceIdeal.Facts

def table (eu : FVec F S60000x64 .f32) (ei : FVec F S40000x64 .f32) : FVec F S100000x64 .f32 :=
  concatenate S100000x64 0 [⟨S60000x64, eu⟩, ⟨S40000x64, ei⟩] concatenates_S60000x64_S40000x64_S100000x64_d0

/-- Negative row numbers wrapped by the table's 100,000 rows, then laid out as a column of start indices. -/
def rows (src : IVec S3000000 32) : IVec S3000000x1 32 :=
  broadcastInDim S3000000x1 ![0] bcast_S3000000_S3000000x1_0
    (select (cmpi .slt src (broadcastInDim S3000000 ![] bcast_S_S3000000 (constantI S_ 32 0#32)))
      (addi src (broadcastInDim S3000000 ![] bcast_S_S3000000 (constantI S_ 32 100000#32))) src)

/-- One propagation step. -/
def layer (src dst : IVec S3000000 32) (val : FVec F S3000000 .f32) (x : FVec F S100000x64 .f32) : FVec F S100000x64 .f32 :=
  Host.scatterAdd scatter_S100000x64_S3000000x1_S3000000x64_1_0_0_1
    (broadcastInDim S100000x64 ![] bcast_S_S100000x64 (constant S_ .f32 0x00000000#32))
    (broadcastInDim S3000000x1 ![0] bcast_S3000000_S3000000x1_0 dst)
    (mulf (broadcastInDim S3000000x64 ![0, 1] bcast_S3000000x1_S3000000x64_0_1 (broadcastInDim S3000000x1 ![0] bcast_S3000000_S3000000x1_0 val))
      (Host.gather gather_S100000x64_S3000000x1_S3000000x64_1_0_n_n_0_1_164 x (rows src)))

def mean4 (x0 x1 x2 x3 : FVec F S100000x64 .f32) : FVec F S100000x64 .f32 :=
  Host.divf (addf (addf (addf x0 x1) x2) x3) (broadcastInDim S100000x64 ![] bcast_S_S100000x64 (constant S_ .f32 0x40800000#32))

def userRows (light : FVec F S100000x64 .f32) (users : IVec S8192 32) : FVec F S8192x64 .f32 :=
  Host.gather gather_S60000x64_S8192x1_S8192x64_1_0_n_n_0_1_164 (extractStridedSlice S60000x64 ![0, 0] light slices_S100000x64_S60000x64_0_0)
    (broadcastInDim S8192x1 ![0] bcast_S8192_S8192x1_0
      (select (cmpi .slt users (broadcastInDim S8192 ![] bcast_S_S8192 (constantI S_ 32 0#32)))
        (addi users (broadcastInDim S8192 ![] bcast_S_S8192 (constantI S_ 32 60000#32))) users))

def itemRows (light : FVec F S100000x64 .f32) (items : IVec S8192 32) : FVec F S8192x64 .f32 :=
  Host.gather gather_S40000x64_S8192x1_S8192x64_1_0_n_n_0_1_164 (extractStridedSlice S40000x64 ![60000, 0] light slices_S100000x64_S40000x64_60000_0)
    (broadcastInDim S8192x1 ![0] bcast_S8192_S8192x1_0
      (select (cmpi .slt items (broadcastInDim S8192 ![] bcast_S_S8192 (constantI S_ 32 0#32)))
        (addi items (broadcastInDim S8192 ![] bcast_S_S8192 (constantI S_ 32 40000#32))) items))

def tr (w : FVec F S64x64 .f32) : FVec F S64x64 .f32 := transpose S64x64 [1, 0] w transposes_S64x64_S64x64_1_0

/-- A projection's row maxima, spread back over the 64 features. -/
def rowMax (p : FVec F S8192x64 .f32) : FVec F S8192x64 .f32 :=
  broadcastInDim S8192x64 ![0, 1] bcast_S8192x1_S8192x64_0_1 (broadcastInDim S8192x1 ![0] bcast_S8192_S8192x1_0
    (maximumf (broadcastInDim S8192 ![] bcast_S_S8192 (constant S_ .f32 0xFF800000#32))
      (Host.reduce FloatOps.maximumf p (constant S_ .f32 0xFF800000#32) reducesTo_S8192x64_S8192_d1 h_S_)))

/-- The exponentials of a projection shifted by its row maxima. -/
def shiftedExp (p : FVec F S8192x64 .f32) : FVec F S8192x64 .f32 := Host.exp (subf p (rowMax p))

/-- The softmax over the 64 features of each row. -/
def softmax (p : FVec F S8192x64 .f32) : FVec F S8192x64 .f32 :=
  Host.divf (shiftedExp p) (broadcastInDim S8192x64 ![0, 1] bcast_S8192x1_S8192x64_0_1 (broadcastInDim S8192x1 ![0] bcast_S8192_S8192x1_0
    (Host.reduceAdd (shiftedExp p) (constant S_ .f32 0x00000000#32) reducesTo_S8192x64_S8192_d1 h_S_)))

/-- The logistic function, entry by entry, as `1 / (1 + exp (−q))`. -/
def sigmoid (q : FVec F S8192x64 .f32) : FVec F S8192x64 .f32 :=
  Host.divf (broadcastInDim S8192x64 ![] bcast_S_S8192x64 (constant S_ .f32 0x3F800000#32))
    (addf (broadcastInDim S8192x64 ![] bcast_S_S8192x64 (constant S_ .f32 0x3F800000#32)) (Host.exp (Host.negf q)))

/-- The batch's scores from the gathered rows and the transposed weights. -/
def score (u it : FVec F S8192x64 .f32) (wuT wiT : FVec F S64x64 .f32) : FVec F S8192 .f32 :=
  Host.reduceAdd (mulf (softmax (Host.dotGeneral dot_S8192x64_S64x64_S8192x64_1_0_0_1_n_n none u wuT))
    (sigmoid (Host.dotGeneral dot_S8192x64_S64x64_S8192x64_1_0_0_1_n_n none it wiT)))
    (constant S_ .f32 0x00000000#32) reducesTo_S8192x64_S8192_d1 h_S_

end R

end Cert.Spec

end
-- ==== Proof.KernelWalk.lean ====
/-
  The kernel program's buffers at the boundaries of its run, read back as pure functions of the argument arrays.
-/
import proofs.«168877_j50294067036541_1_alg».proof.Proof.Gen.KernelIdeal.Frame
import proofs.«168877_j50294067036541_1_alg».proof.Proof.Spec
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Cert.Spec

variable {F : FTy → Type} [FloatOps F]
variable (m : (ℓ : Loc nD τ sig) → Buf (Elt F) ℓ) (ρ : Dev nD → PrngReg)

/-- Two stretches of host operations run one after the other are their concatenation run as one. -/
theorem after_append (l₁ l₂ : List (HloOp τ sig (Elt F))) (W : Valuation τ sig (Elt F)) :
    after l₂ (after l₁ W) = after (l₁ ++ l₂) W := by
  induction l₁ generalizing W with
  | nil => rfl
  | cons op l ih => exact ih _

/-- A buffer that no operation of a stretch writes keeps its contents: the side goal, for a literal stretch. -/
macro "not_written" ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## Before the first region -/

/-- The seven stretches before the first region as one. -/
theorem W7_eq (c : Dev nD) : W7 m ρ c
    = after (hostOps0 ++ hostOps0_1 ++ hostOps0_2 ++ hostOps0_3 ++ hostOps0_4 ++ hostOps0_5 ++ hostOps0_6) (W0 m ρ c) := by
  simp only [← after_append]

theorem W7_v0 (c : Dev nD) : W7 m ρ c (Proc.devRef .tc main_v0)
    = K.table (m ((c : Thread nD τ).loc main_arg5)) (m ((c : Thread nD τ).loc main_arg6)) := by
  rw [W7_eq]
  simp only [hostOps0, hostOps0_1, hostOps0_2, hostOps0_3, hostOps0_4, hostOps0_5, hostOps0_6, List.cons_append, List.nil_append]
  after_results
  rfl

theorem W7_v1 (c : Dev nD) : W7 m ρ c (Proc.devRef .tc main_v1) = K.padI (m ((c : Thread nD τ).loc main_arg2)) := by
  rw [W7_eq]
  simp only [hostOps0, hostOps0_1, hostOps0_2, hostOps0_3, hostOps0_4, hostOps0_5, hostOps0_6, List.cons_append, List.nil_append]
  after_results
  rfl

theorem W7_v2 (c : Dev nD) : W7 m ρ c (Proc.devRef .tc main_v2) = K.padI (m ((c : Thread nD τ).loc main_arg3)) := by
  rw [W7_eq]
  simp only [hostOps0, hostOps0_1, hostOps0_2, hostOps0_3, hostOps0_4, hostOps0_5, hostOps0_6, List.cons_append, List.nil_append]
  after_results
  rfl

theorem W7_v4 (c : Dev nD) : W7 m ρ c (Proc.devRef .tc main_v4)
    = broadcastInDim S3014656x1 ![0] bcast_S3014656_S3014656x1_0 (K.padF (m ((c : Thread nD τ).loc main_arg4))) := by
  rw [W7_eq]
  simp only [hostOps0, hostOps0_1, hostOps0_2, hostOps0_3, hostOps0_4, hostOps0_5, hostOps0_6, List.cons_append, List.nil_append]
  after_results
  rfl

set_option maxHeartbeats 4000000 in
theorem W7_v11 (c : Dev nD) : W7 m ρ c (Proc.devRef .tc main_v11)
    = Host.gather gather_S100000x64_S3014656x1_S3014656x64_1_0_n_n_0_1_164
        (K.table (m ((c : Thread nD τ).loc main_arg5)) (m ((c : Thread nD τ).loc main_arg6)))
        (K.rows (K.padI (m ((c : Thread nD τ).loc main_arg2)))) := by
  rw [W7_eq]
  simp only [hostOps0, hostOps0_1, hostOps0_2, hostOps0_3, hostOps0_4, hostOps0_5, hostOps0_6, List.cons_append, List.nil_append]
  after_results_simp <;> rfl

/-! ## The argument arrays, and the tables the three rounds make -/

/-- The batch's users. -/
abbrev users (c : Dev nD) : IVec S8192 32 := m ((c : Thread nD τ).loc main_arg0)
/-- The batch's items. -/
abbrev items (c : Dev nD) : IVec S8192 32 := m ((c : Thread nD τ).loc main_arg1)
/-- The padded source rows, destination rows and weights of the edges. -/
abbrev srcP (c : Dev nD) : IVec S3014656 32 := K.padI (m ((c : Thread nD τ).loc main_arg2))
abbrev dstP (c : Dev nD) : IVec S3014656 32 := K.padI (m ((c : Thread nD τ).loc main_arg3))
abbrev valP (c : Dev nD) : FVec F S3014656 .f32 := K.padF (m ((c : Thread nD τ).loc main_arg4))
/-- The node table, and the tables after one, two and three rounds. -/
abbrev x0 (c : Dev nD) : FVec F S100000x64 .f32 := K.table (m ((c : Thread nD τ).loc main_arg5)) (m ((c : Thread nD τ).loc main_arg6))
abbrev x1 (c : Dev nD) : FVec F S100000x64 .f32 := K.layer (srcP m c) (dstP m c) (valP m c) (x0 m c)
abbrev x2 (c : Dev nD) : FVec F S100000x64 .f32 := K.layer (srcP m c) (dstP m c) (valP m c) (x1 m c)
abbrev x3 (c : Dev nD) : FVec F S100000x64 .f32 := K.layer (srcP m c) (dstP m c) (valP m c) (x2 m c)
/-- The weight column the tiled multiplies read. -/
abbrev valCol (c : Dev nD) : FVec F S3014656x1 .f32 := broadcastInDim S3014656x1 ![0] bcast_S3014656_S3014656x1_0 (valP m c)

/-- A buffer none of the seven first stretches writes still holds its launch contents at the first region's entry. -/
theorem carry7 (c : Dev nD) (b : Ref sig .tc)
    (h : ∀ op ∈ (hostOps0 ++ hostOps0_1 ++ hostOps0_2 ++ hostOps0_3 ++ hostOps0_4 ++ hostOps0_5 ++ hostOps0_6 : List (HloOp τ sig (Elt F))),
      (Proc.devRef .tc b : DevRef τ sig) ∉ op.writes) :
    W7 m ρ c (Proc.devRef .tc b) = m ((c : Thread nD τ).loc b) := by
  rw [W7_eq]
  exact (after_of_forall_not_mem _ _ h).trans rfl

/-- A buffer written by no stretch up to the scoring kernel's entry and staged by none of the three multiplies still
    holds its launch contents after the third multiply. -/
theorem carry12 (c : Dev nD) (b : Ref sig .tc)
    (h7 : ∀ op ∈ (hostOps0 ++ hostOps0_1 ++ hostOps0_2 ++ hostOps0_3 ++ hostOps0_4 ++ hostOps0_5 ++ hostOps0_6 : List (HloOp τ sig (Elt F))),
      (Proc.devRef .tc b : DevRef τ sig) ∉ op.writes)
    (r0 : ∀ w, Pipeline.arrRef spec0 w ≠ b)
    (h1 : ∀ op ∈ (hostOps1 : List (HloOp τ sig (Elt F))), (Proc.devRef .tc b : DevRef τ sig) ∉ op.writes)
    (r1 : ∀ w, Pipeline.arrRef spec1 w ≠ b)
    (h2 : ∀ op ∈ (hostOps2 : List (HloOp τ sig (Elt F))), (Proc.devRef .tc b : DevRef τ sig) ∉ op.writes)
    (r2 : ∀ w, Pipeline.arrRef spec2 w ≠ b) :
    W12 m ρ c (Proc.devRef .tc b) = m ((c : Thread nD τ).loc b) :=
  calc W12 m ρ c (Proc.devRef .tc b)
    _ = W11 m ρ c (Proc.devRef .tc b) := W12_of_ne m ρ c b r2
    _ = W10 m ρ c (Proc.devRef .tc b) := after_of_forall_not_mem _ _ h2
    _ = W9 m ρ c (Proc.devRef .tc b) := W10_of_ne m ρ c b r1
    _ = W8 m ρ c (Proc.devRef .tc b) := after_of_forall_not_mem _ _ h1
    _ = W7 m ρ c (Proc.devRef .tc b) := W8_of_ne m ρ c b r0
    _ = m ((c : Thread nD τ).loc b) := carry7 m ρ c b h7

/-- The seven first stretches as one literal list, for the side goals about what they write. -/
macro "not_written_pre" : tactic => `(tactic| (
  refine List.forall_iff_forall_mem.mp ?_
  simp only [hostOps0, hostOps0_1, hostOps0_2, hostOps0_3, hostOps0_4, hostOps0_5, hostOps0_6, List.cons_append, List.nil_append,
    List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem W12_arg0 (c : Dev nD) : W12 m ρ c (Proc.devRef .tc main_arg0) = users m c :=
  carry12 m ρ c main_arg0 (by not_written_pre) (by decide) (by not_written hostOps1) (by decide) (by not_written hostOps2) (by decide)
theorem W12_arg1 (c : Dev nD) : W12 m ρ c (Proc.devRef .tc main_arg1) = items m c :=
  carry12 m ρ c main_arg1 (by not_written_pre) (by decide) (by not_written hostOps1) (by decide) (by not_written hostOps2) (by decide)
theorem W12_arg7 (c : Dev nD) : W12 m ρ c (Proc.devRef .tc main_arg7) = m ((c : Thread nD τ).loc main_arg7) :=
  carry12 m ρ c main_arg7 (by not_written_pre) (by decide) (by not_written hostOps1) (by decide) (by not_written hostOps2) (by decide)
theorem W12_arg8 (c : Dev nD) : W12 m ρ c (Proc.devRef .tc main_arg8) = m ((c : Thread nD τ).loc main_arg8) :=
  carry12 m ρ c main_arg8 (by not_written_pre) (by decide) (by not_written hostOps1) (by decide) (by not_written hostOps2) (by decide)

end Cert.KernelIdeal.Walk

end
-- ==== Proof.Region0Value.lean ====
/-
  What the first tiled multiply leaves in its output array, as one function of the two arrays it reads.

  Grid point `t` of 184 stages rows `16384·t … 16384·t + 16383` of the weight column and of the gathered rows, multiplies
  each gathered row by its weight, and writes the product back to the same rows of the output. The 184 row blocks tile
  the 3,014,656 rows, so the output array ends as "weight of the row times the gathered entry" at every index.
-/
import proofs.«168877_j50294067036541_1_alg».proof.Proof.Gen.KernelIdeal.Frame
import proofs.«168877_j50294067036541_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's product at an entry of the block: the weight of the entry's row times the gathered entry. -/
theorem pay_apply (x0 : Vec F S16384x1 .f32) (x1 : Vec F S16384x64 .f32) (p : Fin 16384) (q : Fin 64) :
    k0_pay1 x0 x1 (ix2 p q) = FloatOps.mulf (x0 (ix2 p (0 : Fin 1))) (x1 (ix2 p q)) := by
  unfold k0_pay1
  show FloatOps.mulf (broadcastTo S16384x64 (shapeCast S16384x1 x0 _) _ (ix2 p q)) (shapeCast S16384x64 x1 _ (ix2 p q)) = _
  rw [shapeCast_self, shapeCast_self]
  congr 1
  refine broadcastTo_apply x0 _ (ix2 p q) (ix2 p (0 : Fin 1)) fun ax => ?_
  match ax with
  | ⟨0, _⟩ => rfl
  | ⟨1, _⟩ => rfl

/-- The printed index maps over the grid: every window's block index is the grid point on the row axis and `0` on the
    other. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the weight column and the gathered rows. -/
theorem flushed_eq (c : Dev nD) (t : Fin cfg0.N) :
    (dat0 V c).flushed 2 t = ((cfg0.win 2).blk t).view.read (Elt F) (Cert.Spec.K.wmul (V c main_v4) (V c main_v11)) := by
  show (cfg0.win 2).cut (grid0.coords t) ((dat0 V c).after 2 t) = _
  rw [after0_2]
  unfold out0_2
  rw [View.canon_unit_zero hz]
  simp only [View.ld_unit_zero (S := S16384x1) hz, View.ld_unit_zero (S := S16384x64) hz]
  obtain ⟨e0, e1, e2, e3, e4, e5⟩ := idx_facts t
  funext j
  obtain ⟨p, q, rfl⟩ : ∃ (p : Fin 16384) (q : Fin 64), j = ix2 p q := ⟨j 0, j 1, eq_ix2 j⟩
  refine (pay_apply (iblk0 V c 0 t) (iblk0 V c 1 t) p q).trans ?_
  show FloatOps.mulf (V c main_v4 (((cfg0.win 0).blk t).view.emb (ix2 p (0 : Fin 1)))) (V c main_v11 (((cfg0.win 1).blk t).view.emb (ix2 p q)))
    = FloatOps.mulf (V c main_v4 (ix2 ((((cfg0.win 2).blk t).view.emb (ix2 p q)) 0) (0 : Fin 1))) (V c main_v11 (((cfg0.win 2).blk t).view.emb (ix2 p q)))
  have h0 : ((cfg0.win 0).blk t).view.emb (ix2 p (0 : Fin 1)) = ix2 ((((cfg0.win 2).blk t).view.emb (ix2 p q)) 0) (0 : Fin 1) := by
    funext a; apply Fin.ext
    match a with
    | ⟨0, _⟩ => show win0_0.index t (0 : Fin 2) * 16384 + 1 * p.val = win0_2.index t (0 : Fin 2) * 16384 + 1 * p.val; omega
    | ⟨1, _⟩ => show win0_0.index t (1 : Fin 2) * 1 + 1 * 0 = 0; omega
  have h1 : ((cfg0.win 1).blk t).view.emb (ix2 p q) = ((cfg0.win 2).blk t).view.emb (ix2 p q) := by
    funext a; apply Fin.ext
    match a with
    | ⟨0, _⟩ => show win0_1.index t (0 : Fin 2) * 16384 + 1 * p.val = win0_2.index t (0 : Fin 2) * 16384 + 1 * p.val; omega
    | ⟨1, _⟩ => show win0_1.index t (1 : Fin 2) * 64 + 1 * q.val = win0_2.index t (1 : Fin 2) * 64 + 1 * q.val; omega
  rw [h0, h1]
  rfl

/-- An index of the output array is in point `t`'s block iff each coordinate is in the block's range on its axis. -/
theorem mem_blk (t : Fin cfg0.N) (i : S3014656x64.Idx) :
    i ∈ ((cfg0.win 2).blk t).view.set ↔ ∀ a : Fin 2, win0_2.index t a * S16384x64.size a ≤ (i a).val ∧ (i a).val < win0_2.index t a * S16384x64.size a + S16384x64.size a := by
  show i ∈ ((View.whole main_v12).slice (win0_2.rect t)).set ↔ _
  rw [View.set_slice_whole, Rect.mem_set_unit]
  exact Iff.rfl

/-- Every index of the output array lies in the block of the point its row falls in. -/
theorem cover (i : S3014656x64.Idx) : ∃ t : Fin cfg0.N, (cfg0.win 2).flush t = true ∧ i ∈ ((cfg0.win 2).blk t).view.set := by
  have hi0 : (i 0).val < 3014656 := (i 0).isLt
  have hi1 : (i 1).val < 64 := (i 1).isLt
  refine ⟨⟨(i 0).val / 16384, by show (i 0).val / 16384 < 184; omega⟩, flush0_2 _, ?_⟩
  rw [mem_blk]
  obtain ⟨-, -, -, -, e4, e5⟩ := idx_facts ⟨(i 0).val / 16384, by show (i 0).val / 16384 < 184; omega⟩
  intro a
  match a with
  | ⟨0, _⟩ =>
    show win0_2.index _ (0 : Fin 2) * 16384 ≤ (i 0).val ∧ (i 0).val < win0_2.index _ (0 : Fin 2) * 16384 + 16384
    rw [e4]; show (i 0).val / 16384 * 16384 ≤ (i 0).val ∧ (i 0).val < (i 0).val / 16384 * 16384 + 16384; omega
  | ⟨1, _⟩ =>
    show win0_2.index _ (1 : Fin 2) * 64 ≤ (i 1).val ∧ (i 1).val < win0_2.index _ (1 : Fin 2) * 64 + 64
    rw [e5]; omega

/-- The output array after the region: the weight column times the gathered rows, as the region found them. -/
theorem final (c : Dev nD) : (dat0 V c).arrAt 2 cfg0.N = Cert.Spec.K.wmul (V c main_v4) (V c main_v11) :=
  (dat0 V c).arrAt_eq_of_cover 2 _ (fun t _ => flushed_eq V c t) cover

end Cert.KernelIdeal.Region0

end
-- ==== Proof.Region1Value.lean ====
/-
  What the second tiled multiply leaves in its output array, as one function of the two arrays it reads.

  Grid point `t` of 184 stages rows `16384·t … 16384·t + 16383` of the weight column and of the gathered rows, multiplies
  each gathered row by its weight, and writes the product back to the same rows of the output. The 184 row blocks tile
  the 3,014,656 rows, so the output array ends as "weight of the row times the gathered entry" at every index.
-/
import proofs.«168877_j50294067036541_1_alg».proof.Proof.Gen.KernelIdeal.Frame
import proofs.«168877_j50294067036541_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's product at an entry of the block: the weight of the entry's row times the gathered entry. -/
theorem pay_apply (x0 : Vec F S16384x1 .f32) (x1 : Vec F S16384x64 .f32) (p : Fin 16384) (q : Fin 64) :
    k1_pay1 x0 x1 (ix2 p q) = FloatOps.mulf (x0 (ix2 p (0 : Fin 1))) (x1 (ix2 p q)) := by
  unfold k1_pay1
  show FloatOps.mulf (broadcastTo S16384x64 (shapeCast S16384x1 x0 _) _ (ix2 p q)) (shapeCast S16384x64 x1 _ (ix2 p q)) = _
  rw [shapeCast_self, shapeCast_self]
  congr 1
  refine broadcastTo_apply x0 _ (ix2 p q) (ix2 p (0 : Fin 1)) fun ax => ?_
  match ax with
  | ⟨0, _⟩ => rfl
  | ⟨1, _⟩ => rfl

/-- The printed index maps over the grid: every window's block index is the grid point on the row axis and `0` on the
    other. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the weight column and the gathered rows. -/
theorem flushed_eq (c : Dev nD) (t : Fin cfg1.N) :
    (dat1 V c).flushed 2 t = ((cfg1.win 2).blk t).view.read (Elt F) (Cert.Spec.K.wmul (V c main_v4) (V c main_v23)) := by
  show (cfg1.win 2).cut (grid1.coords t) ((dat1 V c).after 2 t) = _
  rw [after1_2]
  unfold out1_2
  rw [View.canon_unit_zero hz]
  simp only [View.ld_unit_zero (S := S16384x1) hz, View.ld_unit_zero (S := S16384x64) hz]
  obtain ⟨e0, e1, e2, e3, e4, e5⟩ := idx_facts t
  funext j
  obtain ⟨p, q, rfl⟩ : ∃ (p : Fin 16384) (q : Fin 64), j = ix2 p q := ⟨j 0, j 1, eq_ix2 j⟩
  refine (pay_apply (iblk1 V c 0 t) (iblk1 V c 1 t) p q).trans ?_
  show FloatOps.mulf (V c main_v4 (((cfg1.win 0).blk t).view.emb (ix2 p (0 : Fin 1)))) (V c main_v23 (((cfg1.win 1).blk t).view.emb (ix2 p q)))
    = FloatOps.mulf (V c main_v4 (ix2 ((((cfg1.win 2).blk t).view.emb (ix2 p q)) 0) (0 : Fin 1))) (V c main_v23 (((cfg1.win 2).blk t).view.emb (ix2 p q)))
  have h0 : ((cfg1.win 0).blk t).view.emb (ix2 p (0 : Fin 1)) = ix2 ((((cfg1.win 2).blk t).view.emb (ix2 p q)) 0) (0 : Fin 1) := by
    funext a; apply Fin.ext
    match a with
    | ⟨0, _⟩ => show win1_0.index t (0 : Fin 2) * 16384 + 1 * p.val = win1_2.index t (0 : Fin 2) * 16384 + 1 * p.val; omega
    | ⟨1, _⟩ => show win1_0.index t (1 : Fin 2) * 1 + 1 * 0 = 0; omega
  have h1 : ((cfg1.win 1).blk t).view.emb (ix2 p q) = ((cfg1.win 2).blk t).view.emb (ix2 p q) := by
    funext a; apply Fin.ext
    match a with
    | ⟨0, _⟩ => show win1_1.index t (0 : Fin 2) * 16384 + 1 * p.val = win1_2.index t (0 : Fin 2) * 16384 + 1 * p.val; omega
    | ⟨1, _⟩ => show win1_1.index t (1 : Fin 2) * 64 + 1 * q.val = win1_2.index t (1 : Fin 2) * 64 + 1 * q.val; omega
  rw [h0, h1]
  rfl

/-- An index of the output array is in point `t`'s block iff each coordinate is in the block's range on its axis. -/
theorem mem_blk (t : Fin cfg1.N) (i : S3014656x64.Idx) :
    i ∈ ((cfg1.win 2).blk t).view.set ↔ ∀ a : Fin 2, win1_2.index t a * S16384x64.size a ≤ (i a).val ∧ (i a).val < win1_2.index t a * S16384x64.size a + S16384x64.size a := by
  show i ∈ ((View.whole main_v24).slice (win1_2.rect t)).set ↔ _
  rw [View.set_slice_whole, Rect.mem_set_unit]
  exact Iff.rfl

/-- Every index of the output array lies in the block of the point its row falls in. -/
theorem cover (i : S3014656x64.Idx) : ∃ t : Fin cfg1.N, (cfg1.win 2).flush t = true ∧ i ∈ ((cfg1.win 2).blk t).view.set := by
  have hi0 : (i 0).val < 3014656 := (i 0).isLt
  have hi1 : (i 1).val < 64 := (i 1).isLt
  refine ⟨⟨(i 0).val / 16384, by show (i 0).val / 16384 < 184; omega⟩, flush1_2 _, ?_⟩
  rw [mem_blk]
  obtain ⟨-, -, -, -, e4, e5⟩ := idx_facts ⟨(i 0).val / 16384, by show (i 0).val / 16384 < 184; omega⟩
  intro a
  match a with
  | ⟨0, _⟩ =>
    show win1_2.index _ (0 : Fin 2) * 16384 ≤ (i 0).val ∧ (i 0).val < win1_2.index _ (0 : Fin 2) * 16384 + 16384
    rw [e4]; show (i 0).val / 16384 * 16384 ≤ (i 0).val ∧ (i 0).val < (i 0).val / 16384 * 16384 + 16384; omega
  | ⟨1, _⟩ =>
    show win1_2.index _ (1 : Fin 2) * 64 ≤ (i 1).val ∧ (i 1).val < win1_2.index _ (1 : Fin 2) * 64 + 64
    rw [e5]; omega

/-- The output array after the region: the weight column times the gathered rows, as the region found them. -/
theorem final (c : Dev nD) : (dat1 V c).arrAt 2 cfg1.N = Cert.Spec.K.wmul (V c main_v4) (V c main_v23) :=
  (dat1 V c).arrAt_eq_of_cover 2 _ (fun t _ => flushed_eq V c t) cover

end Cert.KernelIdeal.Region1

end
-- ==== Proof.Region2Value.lean ====
/-
  What the third tiled multiply leaves in its output array, as one function of the two arrays it reads.

  Grid point `t` of 184 stages rows `16384·t … 16384·t + 16383` of the weight column and of the gathered rows, multiplies
  each gathered row by its weight, and writes the product back to the same rows of the output. The 184 row blocks tile
  the 3,014,656 rows, so the output array ends as "weight of the row times the gathered entry" at every index.
-/
import proofs.«168877_j50294067036541_1_alg».proof.Proof.Gen.KernelIdeal.Frame
import proofs.«168877_j50294067036541_1_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's product at an entry of the block: the weight of the entry's row times the gathered entry. -/
theorem pay_apply (x0 : Vec F S16384x1 .f32) (x1 : Vec F S16384x64 .f32) (p : Fin 16384) (q : Fin 64) :
    k2_pay1 x0 x1 (ix2 p q) = FloatOps.mulf (x0 (ix2 p (0 : Fin 1))) (x1 (ix2 p q)) := by
  unfold k2_pay1
  show FloatOps.mulf (broadcastTo S16384x64 (shapeCast S16384x1 x0 _) _ (ix2 p q)) (shapeCast S16384x64 x1 _ (ix2 p q)) = _
  rw [shapeCast_self, shapeCast_self]
  congr 1
  refine broadcastTo_apply x0 _ (ix2 p q) (ix2 p (0 : Fin 1)) fun ax => ?_
  match ax with
  | ⟨0, _⟩ => rfl
  | ⟨1, _⟩ => rfl

/-- The printed index maps over the grid: every window's block index is the grid point on the row axis and `0` on the
    other. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the weight column and the gathered rows. -/
theorem flushed_eq (c : Dev nD) (t : Fin cfg2.N) :
    (dat2 V c).flushed 2 t = ((cfg2.win 2).blk t).view.read (Elt F) (Cert.Spec.K.wmul (V c main_v4) (V c main_v35)) := by
  show (cfg2.win 2).cut (grid2.coords t) ((dat2 V c).after 2 t) = _
  rw [after2_2]
  unfold out2_2
  rw [View.canon_unit_zero hz]
  simp only [View.ld_unit_zero (S := S16384x1) hz, View.ld_unit_zero (S := S16384x64) hz]
  obtain ⟨e0, e1, e2, e3, e4, e5⟩ := idx_facts t
  funext j
  obtain ⟨p, q, rfl⟩ : ∃ (p : Fin 16384) (q : Fin 64), j = ix2 p q := ⟨j 0, j 1, eq_ix2 j⟩
  refine (pay_apply (iblk2 V c 0 t) (iblk2 V c 1 t) p q).trans ?_
  show FloatOps.mulf (V c main_v4 (((cfg2.win 0).blk t).view.emb (ix2 p (0 : Fin 1)))) (V c main_v35 (((cfg2.win 1).blk t).view.emb (ix2 p q)))
    = FloatOps.mulf (V c main_v4 (ix2 ((((cfg2.win 2).blk t).view.emb (ix2 p q)) 0) (0 : Fin 1))) (V c main_v35 (((cfg2.win 2).blk t).view.emb (ix2 p q)))
  have h0 : ((cfg2.win 0).blk t).view.emb (ix2 p (0 : Fin 1)) = ix2 ((((cfg2.win 2).blk t).view.emb (ix2 p q)) 0) (0 : Fin 1) := by
    funext a; apply Fin.ext
    match a with
    | ⟨0, _⟩ => show win2_0.index t (0 : Fin 2) * 16384 + 1 * p.val = win2_2.index t (0 : Fin 2) * 16384 + 1 * p.val; omega
    | ⟨1, _⟩ => show win2_0.index t (1 : Fin 2) * 1 + 1 * 0 = 0; omega
  have h1 : ((cfg2.win 1).blk t).view.emb (ix2 p q) = ((cfg2.win 2).blk t).view.emb (ix2 p q) := by
    funext a; apply Fin.ext
    match a with
    | ⟨0, _⟩ => show win2_1.index t (0 : Fin 2) * 16384 + 1 * p.val = win2_2.index t (0 : Fin 2) * 16384 + 1 * p.val; omega
    | ⟨1, _⟩ => show win2_1.index t (1 : Fin 2) * 64 + 1 * q.val = win2_2.index t (1 : Fin 2) * 64 + 1 * q.val; omega
  rw [h0, h1]
  rfl

/-- An index of the output array is in point `t`'s block iff each coordinate is in the block's range on its axis. -/
theorem mem_blk (t : Fin cfg2.N) (i : S3014656x64.Idx) :
    i ∈ ((cfg2.win 2).blk t).view.set ↔ ∀ a : Fin 2, win2_2.index t a * S16384x64.size a ≤ (i a).val ∧ (i a).val < win2_2.index t a * S16384x64.size a + S16384x64.size a := by
  show i ∈ ((View.whole main_v36).slice (win2_2.rect t)).set ↔ _
  rw [View.set_slice_whole, Rect.mem_set_unit]
  exact Iff.rfl

/-- Every index of the output array lies in the block of the point its row falls in. -/
theorem cover (i : S3014656x64.Idx) : ∃ t : Fin cfg2.N, (cfg2.win 2).flush t = true ∧ i ∈ ((cfg2.win 2).blk t).view.set := by
  have hi0 : (i 0).val < 3014656 := (i 0).isLt
  have hi1 : (i 1).val < 64 := (i 1).isLt
  refine ⟨⟨(i 0).val / 16384, by show (i 0).val / 16384 < 184; omega⟩, flush2_2 _, ?_⟩
  rw [mem_blk]
  obtain ⟨-, -, -, -, e4, e5⟩ := idx_facts ⟨(i 0).val / 16384, by show (i 0).val / 16384 < 184; omega⟩
  intro a
  match a with
  | ⟨0, _⟩ =>
    show win2_2.index _ (0 : Fin 2) * 16384 ≤ (i 0).val ∧ (i 0).val < win2_2.index _ (0 : Fin 2) * 16384 + 16384
    rw [e4]; show (i 0).val / 16384 * 16384 ≤ (i 0).val ∧ (i 0).val < (i 0).val / 16384 * 16384 + 16384; omega
  | ⟨1, _⟩ =>
    show win2_2.index _ (1 : Fin 2) * 64 ≤ (i 1).val ∧ (i 1).val < win2_2.index _ (1 : Fin 2) * 64 + 64
    rw [e5]; omega

/-- The output array after the region: the weight column times the gathered rows, as the region found them. -/
theorem final (c : Dev nD) : (dat2 V c).arrAt 2 cfg2.N = Cert.Spec.K.wmul (V c main_v4) (V c main_v35) :=
  (dat2 V c).arrAt_eq_of_cover 2 _ (fun t _ => flushed_eq V c t) cover

end Cert.KernelIdeal.Region2

end
-- ==== Proof.Region3Value.lean ====
/-
  What the scoring kernel leaves in its output array. Its grid has one point and every window's block is its whole
  array, so the output array ends as the body's value of the four input arrays as the region found them.
-/
import proofs.«168877_j50294067036541_1_alg».proof.Proof.Gen.KernelIdeal.Frame
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps at the grid's one point: every window's block index is `0` on both axes. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The user rows' block is the whole array. -/
theorem iblk_0 (c : Dev nD) (t : Fin cfg3.N) : (iblk3 V c 0 t : Vec F S8192x64 .f32) = V c main_v51 := by
  obtain ⟨e0, e1, -⟩ := idx_facts t
  funext y
  show V c main_v51 (((cfg3.win 0).blk t).view.emb y) = V c main_v51 y
  refine congrArg (V c main_v51) (funext fun a => Fin.ext ?_)
  match a with
  | ⟨0, _⟩ => show win3_0.index t (0 : Fin 2) * 8192 + 1 * (y 0).val = (y 0).val; omega
  | ⟨1, _⟩ => show win3_0.index t (1 : Fin 2) * 64 + 1 * (y 1).val = (y 1).val; omega

/-- The item rows' block is the whole array. -/
theorem iblk_1 (c : Dev nD) (t : Fin cfg3.N) : (iblk3 V c 1 t : Vec F S8192x64 .f32) = V c main_v58 := by
  obtain ⟨-, -, e0, e1, -⟩ := idx_facts t
  funext y
  show V c main_v58 (((cfg3.win 1).blk t).view.emb y) = V c main_v58 y
  refine congrArg (V c main_v58) (funext fun a => Fin.ext ?_)
  match a with
  | ⟨0, _⟩ => show win3_1.index t (0 : Fin 2) * 8192 + 1 * (y 0).val = (y 0).val; omega
  | ⟨1, _⟩ => show win3_1.index t (1 : Fin 2) * 64 + 1 * (y 1).val = (y 1).val; omega

/-- The transposed user weights' block is the whole array. -/
theorem iblk_2 (c : Dev nD) (t : Fin cfg3.N) : (iblk3 V c 2 t : Vec F S64x64 .f32) = V c main_v59 := by
  obtain ⟨-, -, -, -, e0, e1, -⟩ := idx_facts t
  funext y
  show V c main_v59 (((cfg3.win 2).blk t).view.emb y) = V c main_v59 y
  refine congrArg (V c main_v59) (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

/-- The transposed item weights' block is the whole array. -/
theorem iblk_3 (c : Dev nD) (t : Fin cfg3.N) : (iblk3 V c 3 t : Vec F S64x64 .f32) = V c main_v60 := by
  obtain ⟨-, -, -, -, -, -, e0, e1, -⟩ := idx_facts t
  funext y
  show V c main_v60 (((cfg3.win 3).blk t).view.emb y) = V c main_v60 y
  refine congrArg (V c main_v60) (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- What the one point writes back is the (whole) block of the body's value of the four arrays. -/
theorem flushed_eq (c : Dev nD) (t : Fin cfg3.N) :
    (dat3 V c).flushed 4 t = ((cfg3.win 4).blk t).view.read (Elt F)
      (k3_pay1 (V c main_v51) (V c main_v58) (V c main_v59) (V c main_v60)) := by
  show (cfg3.win 4).cut (grid3.coords t) ((dat3 V c).after 4 t) = _
  rw [after3_4]
  unfold out3_4
  rw [View.canon_unit_zero hz]
  simp only [View.ld_unit_zero (S := S8192x64) hz, View.ld_unit_zero (S := S64x64) hz]
  obtain ⟨-, -, -, -, -, -, -, -, e0, e1⟩ := idx_facts t
  funext j
  show k3_pay1 (iblk3 V c 0 t) (iblk3 V c 1 t) (iblk3 V c 2 t) (iblk3 V c 3 t) j
    = k3_pay1 (V c main_v51) (V c main_v58) (V c main_v59) (V c main_v60) (((cfg3.win 4).blk t).view.emb j)
  have hj : ((cfg3.win 4).blk t).view.emb j = j := by
    funext a; apply Fin.ext
    match a with
    | ⟨0, _⟩ => show win3_4.index t (0 : Fin 2) * 8192 + 1 * (j 0).val = (j 0).val; omega
    | ⟨1, _⟩ => show win3_4.index t (1 : Fin 2) * 1 + 1 * (j 1).val = (j 1).val; omega
  rw [hj]
  exact congrFun (congr (congr (congr (congrArg k3_pay1 (iblk_0 V c t)) (iblk_1 V c t)) (iblk_2 V c t)) (iblk_3 V c t)) j

/-- An index of the output array is in the point's block iff each coordinate is in the block's range on its axis. -/
theorem mem_blk (t : Fin cfg3.N) (i : S8192x1.Idx) :
    i ∈ ((cfg3.win 4).blk t).view.set ↔ ∀ a : Fin 2, win3_4.index t a * S8192x1.size a ≤ (i a).val ∧ (i a).val < win3_4.index t a * S8192x1.size a + S8192x1.size a := by
  show i ∈ ((View.whole main_v61).slice (win3_4.rect t)).set ↔ _
  rw [View.set_slice_whole, Rect.mem_set_unit]
  exact Iff.rfl

/-- The one block covers the output array. -/
theorem cover (i : S8192x1.Idx) : ∃ t : Fin cfg3.N, (cfg3.win 4).flush t = true ∧ i ∈ ((cfg3.win 4).blk t).view.set := by
  have hi0 : (i 0).val < 8192 := (i 0).isLt
  have hi1 : (i 1).val < 1 := (i 1).isLt
  refine ⟨⟨0, by decide⟩, flush3_4 _, ?_⟩
  rw [mem_blk]
  obtain ⟨-, -, -, -, -, -, -, -, e0, e1⟩ := idx_facts ⟨0, by decide⟩
  intro a
  match a with
  | ⟨0, _⟩ =>
    show win3_4.index _ (0 : Fin 2) * 8192 ≤ (i 0).val ∧ (i 0).val < win3_4.index _ (0 : Fin 2) * 8192 + 8192
    rw [e0]; omega
  | ⟨1, _⟩ =>
    show win3_4.index _ (1 : Fin 2) * 1 ≤ (i 1).val ∧ (i 1).val < win3_4.index _ (1 : Fin 2) * 1 + 1
    rw [e1]; omega

/-- The output array after the region: the body's value of the four arrays it read. -/
theorem final (c : Dev nD) : (dat3 V c).arrAt 4 cfg3.N = k3_pay1 (V c main_v51) (V c main_v58) (V c main_v59) (V c main_v60) :=
  (dat3 V c).arrAt_eq_of_cover 4 _ (fun t _ => flushed_eq V c t) cover

end Cert.KernelIdeal.Region3

end
-- ==== Proof.KernelWalk2.lean ====
/-
  The kernel program's result buffer after its run, as a pure function of the argument arrays: three rounds of
  "gather, tiled multiply, scatter-add", the average of the four tables, the batch's rows, and the scoring kernel.
-/
import proofs.«168877_j50294067036541_1_alg».proof.Proof.KernelWalk
import proofs.«168877_j50294067036541_1_alg».proof.Proof.Region0Value
import proofs.«168877_j50294067036541_1_alg».proof.Proof.Region1Value
import proofs.«168877_j50294067036541_1_alg».proof.Proof.Region2Value
import proofs.«168877_j50294067036541_1_alg».proof.Proof.Region3Value

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Cert.Spec

variable {F : FTy → Type} [FloatOps F]
variable (m : (ℓ : Loc nD τ sig) → Buf (Elt F) ℓ) (ρ : Dev nD → PrngReg)

/-! ## The first multiply, and the stretch after it -/

theorem W8_v12 (c : Dev nD) : W8 m ρ c (Proc.devRef .tc main_v12)
    = K.wmul (valCol m c) (Host.gather gather_S100000x64_S3014656x1_S3014656x64_1_0_n_n_0_1_164 (x0 m c) (K.rows (srcP m c))) := by
  refine (W8_arr m ρ c 2).trans ((Region0.final (V7 m ρ) c).trans ?_)
  show K.wmul (W7 m ρ c (Proc.devRef .tc main_v4)) (W7 m ρ c (Proc.devRef .tc main_v11)) = _
  rw [W7_v4, W7_v11]

theorem W8_v0 (c : Dev nD) : W8 m ρ c (Proc.devRef .tc main_v0) = x0 m c :=
  (W8_of_ne m ρ c main_v0 (by decide)).trans (W7_v0 m ρ c)
theorem W8_v1 (c : Dev nD) : W8 m ρ c (Proc.devRef .tc main_v1) = srcP m c :=
  (W8_of_ne m ρ c main_v1 (by decide)).trans (W7_v1 m ρ c)
theorem W8_v2 (c : Dev nD) : W8 m ρ c (Proc.devRef .tc main_v2) = dstP m c :=
  (W8_of_ne m ρ c main_v2 (by decide)).trans (W7_v2 m ρ c)
/-- The weight column is the first multiply's input window 0: staged, never written back. -/
theorem W8_v4 (c : Dev nD) : W8 m ρ c (Proc.devRef .tc main_v4) = valCol m c :=
  (W8_arr m ρ c 0).trans (((dat0 (V7 m ρ) c).arrAt_in 0 rfl _).trans ((A_eq0 (V7 m ρ) c 0).trans (W7_v4 m ρ c)))

theorem W9_v15 (c : Dev nD) : W9 m ρ c (Proc.devRef .tc main_v15) = x1 m c := by
  show after hostOps1 (W8 m ρ c) (Proc.devRef .tc main_v15) = _
  simp only [hostOps1]
  after_results
  rw [W8_v2, W8_v12]
  try rfl

theorem W9_v16 (c : Dev nD) : W9 m ρ c (Proc.devRef .tc main_v16) = addf (x0 m c) (x1 m c) := by
  show after hostOps1 (W8 m ρ c) (Proc.devRef .tc main_v16) = _
  simp only [hostOps1]
  after_results
  rw [W8_v0, W8_v2, W8_v12]
  try rfl

set_option maxHeartbeats 4000000 in
theorem W9_v23 (c : Dev nD) : W9 m ρ c (Proc.devRef .tc main_v23)
    = Host.gather gather_S100000x64_S3014656x1_S3014656x64_1_0_n_n_0_1_164 (x1 m c) (K.rows (srcP m c)) := by
  show after hostOps1 (W8 m ρ c) (Proc.devRef .tc main_v23) = _
  simp only [hostOps1]
  after_results
  rw [W8_v1, W8_v2, W8_v12]
  try rfl

theorem W9_v1 (c : Dev nD) : W9 m ρ c (Proc.devRef .tc main_v1) = srcP m c :=
  (after_of_forall_not_mem _ _ (by not_written hostOps1)).trans (W8_v1 m ρ c)
theorem W9_v2 (c : Dev nD) : W9 m ρ c (Proc.devRef .tc main_v2) = dstP m c :=
  (after_of_forall_not_mem _ _ (by not_written hostOps1)).trans (W8_v2 m ρ c)
theorem W9_v4 (c : Dev nD) : W9 m ρ c (Proc.devRef .tc main_v4) = valCol m c :=
  (after_of_forall_not_mem _ _ (by not_written hostOps1)).trans (W8_v4 m ρ c)

/-! ## The second multiply, and the stretch after it -/

theorem W10_v24 (c : Dev nD) : W10 m ρ c (Proc.devRef .tc main_v24)
    = K.wmul (valCol m c) (Host.gather gather_S100000x64_S3014656x1_S3014656x64_1_0_n_n_0_1_164 (x1 m c) (K.rows (srcP m c))) := by
  refine (W10_arr m ρ c 2).trans ((Region1.final (V9 m ρ) c).trans ?_)
  show K.wmul (W9 m ρ c (Proc.devRef .tc main_v4)) (W9 m ρ c (Proc.devRef .tc main_v23)) = _
  rw [W9_v4, W9_v23]

theorem W10_v1 (c : Dev nD) : W10 m ρ c (Proc.devRef .tc main_v1) = srcP m c :=
  (W10_of_ne m ρ c main_v1 (by decide)).trans (W9_v1 m ρ c)
theorem W10_v2 (c : Dev nD) : W10 m ρ c (Proc.devRef .tc main_v2) = dstP m c :=
  (W10_of_ne m ρ c main_v2 (by decide)).trans (W9_v2 m ρ c)
/-- The weight column is the second multiply's input window 0: staged, never written back. -/
theorem W10_v4 (c : Dev nD) : W10 m ρ c (Proc.devRef .tc main_v4) = valCol m c :=
  (W10_arr m ρ c 0).trans (((dat1 (V9 m ρ) c).arrAt_in 0 rfl _).trans ((A_eq1 (V9 m ρ) c 0).trans (W9_v4 m ρ c)))
theorem W10_v16 (c : Dev nD) : W10 m ρ c (Proc.devRef .tc main_v16) = addf (x0 m c) (x1 m c) :=
  (W10_of_ne m ρ c main_v16 (by decide)).trans (W9_v16 m ρ c)

theorem W11_v27 (c : Dev nD) : W11 m ρ c (Proc.devRef .tc main_v27) = x2 m c := by
  show after hostOps2 (W10 m ρ c) (Proc.devRef .tc main_v27) = _
  simp only [hostOps2]
  after_results
  rw [W10_v2, W10_v24]
  try rfl

theorem W11_v28 (c : Dev nD) : W11 m ρ c (Proc.devRef .tc main_v28) = addf (addf (x0 m c) (x1 m c)) (x2 m c) := by
  show after hostOps2 (W10 m ρ c) (Proc.devRef .tc main_v28) = _
  simp only [hostOps2]
  after_results
  rw [W10_v16, W10_v2, W10_v24]
  try rfl

set_option maxHeartbeats 4000000 in
theorem W11_v35 (c : Dev nD) : W11 m ρ c (Proc.devRef .tc main_v35)
    = Host.gather gather_S100000x64_S3014656x1_S3014656x64_1_0_n_n_0_1_164 (x2 m c) (K.rows (srcP m c)) := by
  show after hostOps2 (W10 m ρ c) (Proc.devRef .tc main_v35) = _
  simp only [hostOps2]
  after_results
  rw [W10_v1, W10_v2, W10_v24]
  try rfl

theorem W11_v2 (c : Dev nD) : W11 m ρ c (Proc.devRef .tc main_v2) = dstP m c :=
  (after_of_forall_not_mem _ _ (by not_written hostOps2)).trans (W10_v2 m ρ c)
theorem W11_v4 (c : Dev nD) : W11 m ρ c (Proc.devRef .tc main_v4) = valCol m c :=
  (after_of_forall_not_mem _ _ (by not_written hostOps2)).trans (W10_v4 m ρ c)

/-! ## The third multiply, and the stretch after it -/

theorem W12_v36 (c : Dev nD) : W12 m ρ c (Proc.devRef .tc main_v36)
    = K.wmul (valCol m c) (Host.gather gather_S100000x64_S3014656x1_S3014656x64_1_0_n_n_0_1_164 (x2 m c) (K.rows (srcP m c))) := by
  refine (W12_arr m ρ c 2).trans ((Region2.final (V11 m ρ) c).trans ?_)
  show K.wmul (W11 m ρ c (Proc.devRef .tc main_v4)) (W11 m ρ c (Proc.devRef .tc main_v35)) = _
  rw [W11_v4, W11_v35]

theorem W12_v2 (c : Dev nD) : W12 m ρ c (Proc.devRef .tc main_v2) = dstP m c :=
  (W12_of_ne m ρ c main_v2 (by decide)).trans (W11_v2 m ρ c)
theorem W12_v28 (c : Dev nD) : W12 m ρ c (Proc.devRef .tc main_v28) = addf (addf (x0 m c) (x1 m c)) (x2 m c) :=
  (W12_of_ne m ρ c main_v28 (by decide)).trans (W11_v28 m ρ c)

/-- The average of the four tables. -/
abbrev light (c : Dev nD) : FVec F S100000x64 .f32 := K.mean4 (x0 m c) (x1 m c) (x2 m c) (x3 m c)

set_option maxHeartbeats 8000000 in
theorem W13_v51 (c : Dev nD) : W13 m ρ c (Proc.devRef .tc main_v51) = K.userRows (light m c) (users m c) := by
  show after hostOps3 (W12 m ρ c) (Proc.devRef .tc main_v51) = _
  simp only [hostOps3]
  after_results_simp
  rw [W12_v28, W12_v2, W12_v36, W12_arg0]
  try rfl

set_option maxHeartbeats 8000000 in
theorem W13_v58 (c : Dev nD) : W13 m ρ c (Proc.devRef .tc main_v58) = K.itemRows (light m c) (items m c) := by
  show after hostOps3 (W12 m ρ c) (Proc.devRef .tc main_v58) = _
  simp only [hostOps3]
  after_results_simp
  rw [W12_v28, W12_v2, W12_v36, W12_arg1]
  try rfl

set_option maxHeartbeats 8000000 in
theorem W13_v59 (c : Dev nD) : W13 m ρ c (Proc.devRef .tc main_v59) = K.tr (m ((c : Thread nD τ).loc main_arg7)) := by
  show after hostOps3 (W12 m ρ c) (Proc.devRef .tc main_v59) = _
  simp only [hostOps3]
  after_results_simp
  rw [W12_arg7]
  try rfl

set_option maxHeartbeats 8000000 in
theorem W13_v60 (c : Dev nD) : W13 m ρ c (Proc.devRef .tc main_v60) = K.tr (m ((c : Thread nD τ).loc main_arg8)) := by
  show after hostOps3 (W12 m ρ c) (Proc.devRef .tc main_v60) = _
  simp only [hostOps3]
  after_results_simp
  rw [W12_arg8]
  try rfl

/-! ## The scoring kernel, and the last reshape -/

theorem W14_v61 (c : Dev nD) : W14 m ρ c (Proc.devRef .tc main_v61)
    = k3_pay1 (K.userRows (light m c) (users m c)) (K.itemRows (light m c) (items m c))
        (K.tr (m ((c : Thread nD τ).loc main_arg7))) (K.tr (m ((c : Thread nD τ).loc main_arg8))) := by
  refine (W14_arr m ρ c 4).trans ((Region3.final (V13 m ρ) c).trans ?_)
  show k3_pay1 (W13 m ρ c (Proc.devRef .tc main_v51)) (W13 m ρ c (Proc.devRef .tc main_v58))
    (W13 m ρ c (Proc.devRef .tc main_v59)) (W13 m ρ c (Proc.devRef .tc main_v60)) = _
  rw [W13_v51, W13_v58, W13_v59, W13_v60]

/-- THE RESULT BUFFER after the run: the scoring kernel's column of the batch's rows, laid out as a vector. -/
theorem W15_v62 (c : Dev nD) : W15 m ρ c (Proc.devRef .tc main_v62)
    = shapeCast S8192 (k3_pay1 (K.userRows (light m c) (users m c)) (K.itemRows (light m c) (items m c))
        (K.tr (m ((c : Thread nD τ).loc main_arg7))) (K.tr (m ((c : Thread nD τ).loc main_arg8)))) shapeCasts_S8192x1_S8192 := by
  show after hostOps4 (W14 m ρ c) (Proc.devRef .tc main_v62) = _
  simp only [hostOps4]
  after_results
  rw [W14_v61]
  try rfl

end Cert.KernelIdeal.Walk

end
-- ==== Proof.RefValue.lean ====
/-
  The reference's result as the composition of its pieces: three propagation rounds on the node table, the average of
  the four tables, the batch's rows, the score.
-/
import proofs.«168877_j50294067036541_1_alg».proof.Proof.Gen.ReferenceIdeal.Run
import proofs.«168877_j50294067036541_1_alg».proof.Proof.Spec

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Cert.Spec

variable {F : FTy → Type} [FloatOps F]
variable (m : (ℓ : Loc nD τ sig) → Buf (Elt F) ℓ)

/-- The node table, and the tables after one, two and three rounds. -/
abbrev x0 (c : Dev nD) : FVec F S100000x64 .f32 := R.table (m ((c.tc : Thread nD τ).loc main_arg5)) (m ((c.tc : Thread nD τ).loc main_arg6))
abbrev step (c : Dev nD) (x : FVec F S100000x64 .f32) : FVec F S100000x64 .f32 :=
  R.layer (m ((c.tc : Thread nD τ).loc main_arg2)) (m ((c.tc : Thread nD τ).loc main_arg3)) (m ((c.tc : Thread nD τ).loc main_arg4)) x
/-- The average of the four tables. -/
abbrev light (c : Dev nD) : FVec F S100000x64 .f32 :=
  R.mean4 (x0 m c) (step m c (x0 m c)) (step m c (step m c (x0 m c))) (step m c (step m c (step m c (x0 m c))))

/-- The reference's result is the score of the batch's rows of the averaged table. -/
theorem res_eq (c : Dev nD) : res_main_v83 m c
    = R.score (R.userRows (light m c) (m ((c.tc : Thread nD τ).loc main_arg0))) (R.itemRows (light m c) (m ((c.tc : Thread nD τ).loc main_arg1)))
        (R.tr (m ((c.tc : Thread nD τ).loc main_arg7))) (R.tr (m ((c.tc : Thread nD τ).loc main_arg8))) := by
  unfold res_main_v83
  rfl

end Cert.ReferenceIdeal.RefValue

end
-- ==== Proof.LayerEq.lean ====
/-
  One propagation step over the zero-padded edge arrays equals the step over the edge arrays themselves.
-/
import proofs.«168877_j50294067036541_1_alg».proof.Proof.Spec
import Idealize.ShloMosaic.PureOps.Ideal.Laws
import Idealize.ShloMosaic.Lib.ValueIdx
import Idealize.ShloMosaic.Lib.Pipeline.Value
import Idealize.ShloMosaic.Lib.KernelVsHost

noncomputable section

namespace Cert.LayerEq

open Idealize.ShloMosaic Idealize.ShloMosaic.ValueIdx

/-! ## The two dimension records, for any number of edges -/

/-- The scatter's dimension numbers for a table [R, C], a column [m, 1] of row numbers and updates [m, C]: update
    (e, f) goes to row idx[e, 0], column f. -/
abbrev scat (R C m : ℕ) (wf : ScatterDims.WF ⟨2, ![R, C]⟩ ⟨2, ![m, 1]⟩ ⟨2, ![m, C]⟩ [1] [0] [0] 1) :
    ScatterDims ⟨2, ![R, C]⟩ ⟨2, ![m, 1]⟩ ⟨2, ![m, C]⟩ where
  updateWindowDims := [1]
  insertedWindowDims := [0]
  scatterDimsToOperandDims := [0]
  indexVectorDim := 1
  wf := wf

/-- The gather's dimension numbers for a table [R, C], a column [m, 1] of row numbers and a result [m, C]: result
    (e, f) reads row idx[e, 0] (clamped), column f. -/
abbrev gat (R C m : ℕ) (wf : GatherDims.WF ⟨2, ![R, C]⟩ ⟨2, ![m, 1]⟩ ⟨2, ![m, C]⟩ [1] [0] [] [0] [] 1 ![1, C]) :
    GatherDims ⟨2, ![R, C]⟩ ⟨2, ![m, 1]⟩ ⟨2, ![m, C]⟩ where
  offsetDims := [1]
  collapsedSliceDims := [0]
  operandBatchingDims := []
  startIndicesBatchingDims := []
  startIndexMap := [0]
  indexVectorDim := 1
  sliceSizes := ![1, C]
  wf := wf

/-- An operand axis is kept by the update windows when it is not an inserted one. -/
theorem scat_mem_sKept {s si u : Shape} (d : ScatterDims s si u) (a : Fin s.rank) :
    a ∈ d.sKept ↔ a ∉ d.insertedWindowDims := by
  simp [ScatterDims.sKept, Shape.kept, List.mem_filter, List.mem_finRange]

section Scat
variable {R C m w : ℕ} (wf : ScatterDims.WF ⟨2, ![R, C]⟩ ⟨2, ![m, 1]⟩ ⟨2, ![m, C]⟩ [1] [0] [0] 1)

/-- The window starts, on the row axis, at the row number the update's edge carries. -/
theorem scat_start_zero (e : Fin m) (f : Fin C) (idx : IVec ⟨2, ![m, 1]⟩ w) :
    (scat R C m wf).start (ix2 e f) idx 0 = (idx (ix2 e (0 : Fin 1))).toInt := by
  unfold ScatterDims.start
  rw [dif_pos (show (0 : Fin 2) ∈ (scat R C m wf).scatterDimsToOperandDims from List.mem_singleton.mpr rfl)]
  have hsi : (scat R C m wf).siIdx (ix2 e f) ⟨List.idxOf (0 : Fin 2) (scat R C m wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and at 0 on the column axis. -/
theorem scat_start_one (e : Fin m) (f : Fin C) (idx : IVec ⟨2, ![m, 1]⟩ w) :
    (scat R C m wf).start (ix2 e f) idx 1 = 0 := by
  unfold ScatterDims.start
  rw [dif_neg (show ¬(1 : Fin 2) ∈ (scat R C m wf).scatterDimsToOperandDims from
    fun h => absurd (congrArg Fin.val (List.mem_singleton.mp h)) Nat.one_ne_zero)]

/-- The window coordinate is 0 on the row axis … -/
theorem scat_window_zero (e : Fin m) (f : Fin C) : (scat R C m wf).window (ix2 e f) 0 = 0 := by
  unfold ScatterDims.window
  rw [dif_neg (show ¬(0 : Fin 2) ∈ (scat R C m wf).sKept from
    fun h => (scat_mem_sKept _ _).1 h (List.mem_singleton.mpr rfl))]

/-- … and the update's column on the column axis. -/
theorem scat_window_one (e : Fin m) (f : Fin C) : (scat R C m wf).window (ix2 e f) 1 = f.val := by
  unfold ScatterDims.window
  rw [dif_pos (show (1 : Fin 2) ∈ (scat R C m wf).sKept from
    (scat_mem_sKept _ _).2 fun h => absurd (congrArg Fin.val (List.mem_singleton.mp h)) Nat.one_ne_zero)]
  rfl

end Scat

section Gat
variable {α : Type} {R C m w : ℕ} (wf : GatherDims.WF ⟨2, ![R, C]⟩ ⟨2, ![m, 1]⟩ ⟨2, ![m, C]⟩ [1] [0] [] [0] [] 1 ![1, C])

/-- THE GATHER READ AT (e, f): the table at the row number idx[e, 0], read signed and clamped into [0, R − 1], and at
    column f. -/
theorem gat_apply (hR : 0 < R) (x : (⟨2, ![R, C]⟩ : Shape).Idx → α) (idx : IVec ⟨2, ![m, 1]⟩ w) (e : Fin m) (f : Fin C) :
    Host.gather (gat R C m wf) x idx (ix2 e f)
      = x (ix2 (⟨min (idx (ix2 e (0 : Fin 1))).toInt.toNat (R - 1), by omega⟩ : Fin R) f) := by
  unfold Host.gather
  refine congrArg x (funext fun a => Fin.ext ?_)
  have h10 : ¬(1 : Fin 2) ∈ (gat R C m wf).startIndexMap :=
    fun h => absurd (congrArg Fin.val (List.mem_singleton.mp h)) Nat.one_ne_zero
  have hk0 : ¬(0 : Fin 2) ∈ (gat R C m wf).sKept :=
    fun h => ((GatherDims.mem_sKept _ _).mp h).1 (List.mem_singleton.mpr rfl)
  have hk1 : (1 : Fin 2) ∈ (gat R C m wf).sKept :=
    (GatherDims.mem_sKept _ _).mpr ⟨fun h => absurd (congrArg Fin.val (List.mem_singleton.mp h)) Nat.one_ne_zero, List.not_mem_nil⟩
  match a with
  | ⟨0, _⟩ =>
    show (gat R C m wf).start (ix2 e f) idx 0 + (gat R C m wf).batchCoord (ix2 e f) 0 + (gat R C m wf).offCoord (ix2 e f) 0 = _
    rw [GatherDims.batchCoord_eq_zero _ _ _ List.not_mem_nil, GatherDims.offCoord_eq_zero _ _ _ hk0]
    simp only [Nat.add_zero]
    unfold GatherDims.start
    rw [dif_pos (show (0 : Fin 2) ∈ (gat R C m wf).startIndexMap from List.mem_singleton.mpr rfl)]
    have hsi : (gat R C m wf).siIdx (ix2 e f) ⟨List.idxOf (0 : Fin 2) (gat R C m wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gat R C m wf).start (ix2 e f) idx 1 + (gat R C m wf).batchCoord (ix2 e f) 1 + (gat R C m wf).offCoord (ix2 e f) 1 = f.val
    rw [GatherDims.batchCoord_eq_zero _ _ _ List.not_mem_nil]
    unfold GatherDims.start GatherDims.offCoord
    rw [dif_neg h10, dif_pos hk1]
    simp only [Nat.add_zero, Nat.zero_add]
    rfl

end Gat

/-! ## Two scatters with the same starts and windows land at the same place -/

theorem resultIdx?_congr {s si si' u u' : Shape} {w : ℕ} (d : ScatterDims s si u) (d' : ScatterDims s si' u')
    (j : u.Idx) (j' : u'.Idx) (idx : IVec si w) (idx' : IVec si' w)
    (hs : ∀ a, d.start j idx a = d'.start j' idx' a) (hw : ∀ a, d.window j a = d'.window j' a) :
    d.resultIdx? j idx = d'.resultIdx? j' idx' := by
  unfold ScatterDims.resultIdx?
  by_cases h : ∀ a, 0 ≤ d.start j idx a + (d.window j a : Int) ∧ d.start j idx a + (d.window j a : Int) < (s.size a : Int)
  · have h' : ∀ a, 0 ≤ d'.start j' idx' a + (d'.window j' a : Int) ∧ d'.start j' idx' a + (d'.window j' a : Int) < (s.size a : Int) :=
      fun a => by rw [← hs a, ← hw a]; exact h a
    rw [dif_pos h, dif_pos h']
    refine congrArg some (funext fun a => Fin.ext ?_)
    show (d.start j idx a + (d.window j a : Int)).toNat = (d'.start j' idx' a + (d'.window j' a : Int)).toNat
    rw [hs a, hw a]
  · have h' : ¬∀ a, 0 ≤ d'.start j' idx' a + (d'.window j' a : Int) ∧ d'.start j' idx' a + (d'.window j' a : Int) < (s.size a : Int) :=
      fun h' => h fun a => by rw [hs a, hw a]; exact h' a
    rw [dif_neg h, dif_neg h']

/-! ## The scatter-add over zero-padded updates -/

section Pad
variable {R C n m : ℕ}

/-- An update index of the n edges, as an update index of the m ≥ n padded edges: the same coordinates. -/
def emb (hnm : n ≤ m) (j : (⟨2, ![n, C]⟩ : Shape).Idx) : (⟨2, ![m, C]⟩ : Shape).Idx :=
  ix2 (⟨(j 0).val, Nat.lt_of_lt_of_le (idx2_lt0 j) hnm⟩ : Fin m) (⟨(j 1).val, idx2_lt1 j⟩ : Fin C)

theorem emb_ix2 (hnm : n ≤ m) (e : Fin n) (f : Fin C) : emb hnm (ix2 e f) = ix2 (Fin.castLE hnm e) f := rfl

theorem emb_injective (hnm : n ≤ m) : Function.Injective (emb (C := C) hnm) := by
  intro a b h
  obtain ⟨e, f, rfl⟩ : ∃ (e : Fin n) (f : Fin C), a = ix2 e f := ⟨a 0, a 1, eq_ix2 a⟩
  obtain ⟨e', f', rfl⟩ : ∃ (e : Fin n) (f : Fin C), b = ix2 e f := ⟨b 0, b 1, eq_ix2 b⟩
  have h0 : e.val = e'.val := congrArg (fun k : (⟨2, ![m, C]⟩ : Shape).Idx => (k 0).val) h
  have h1 : f.val = f'.val := congrArg (fun k : (⟨2, ![m, C]⟩ : Shape).Idx => (k 1).val) h
  rw [Fin.ext h0, Fin.ext h1]

/-- The padded scatter sends the embedded update where the unpadded scatter sends the update, when the padded row
    numbers extend the unpadded ones. -/
theorem resultIdx?_emb (hnm : n ≤ m) (wfK : ScatterDims.WF ⟨2, ![R, C]⟩ ⟨2, ![m, 1]⟩ ⟨2, ![m, C]⟩ [1] [0] [0] 1)
    (wfR : ScatterDims.WF ⟨2, ![R, C]⟩ ⟨2, ![n, 1]⟩ ⟨2, ![n, C]⟩ [1] [0] [0] 1)
    (idxK : IVec ⟨2, ![m, 1]⟩ 32) (idxR : IVec ⟨2, ![n, 1]⟩ 32)
    (hidx : ∀ e : Fin n, idxK (ix2 (Fin.castLE hnm e) (0 : Fin 1)) = idxR (ix2 e (0 : Fin 1)))
    (j : (⟨2, ![n, C]⟩ : Shape).Idx) :
    (scat R C m wfK).resultIdx? (emb hnm j) idxK = (scat R C n wfR).resultIdx? j idxR := by
  obtain ⟨e, f, rfl⟩ : ∃ (e : Fin n) (f : Fin C), j = ix2 e f := ⟨j 0, j 1, eq_ix2 j⟩
  rw [emb_ix2]
  refine resultIdx?_congr _ _ _ _ _ _ (fun a => ?_) (fun a => ?_)
  · match a with
    | ⟨0, _⟩ => exact (scat_start_zero wfK _ f idxK).trans ((congrArg BitVec.toInt (hidx e)).trans (scat_start_zero wfR e f idxR).symm)
    | ⟨1, _⟩ => exact (scat_start_one wfK _ f idxK).trans (scat_start_one wfR e f idxR).symm
  · match a with
    | ⟨0, _⟩ => exact (scat_window_zero wfK _ f).trans (scat_window_zero wfR e f).symm
    | ⟨1, _⟩ => exact (scat_window_one wfK _ f).trans (scat_window_one wfR e f).symm

/-- The scatter-add of updates padded with zeros past the n-th edge is the scatter-add of the n updates: a zero adds
    nothing wherever it lands, and the other updates land where they did. -/
theorem hostScatterAdd_pad (hnm : n ≤ m) (wfK : ScatterDims.WF ⟨2, ![R, C]⟩ ⟨2, ![m, 1]⟩ ⟨2, ![m, C]⟩ [1] [0] [0] 1)
    (wfR : ScatterDims.WF ⟨2, ![R, C]⟩ ⟨2, ![n, 1]⟩ ⟨2, ![n, C]⟩ [1] [0] [0] 1)
    (x : (⟨2, ![R, C]⟩ : Shape).Idx → EReal) (idxK : IVec ⟨2, ![m, 1]⟩ 32) (idxR : IVec ⟨2, ![n, 1]⟩ 32)
    (updK : (⟨2, ![m, C]⟩ : Shape).Idx → EReal) (updR : (⟨2, ![n, C]⟩ : Shape).Idx → EReal)
    (hidx : ∀ e : Fin n, idxK (ix2 (Fin.castLE hnm e) (0 : Fin 1)) = idxR (ix2 e (0 : Fin 1)))
    (hupd : ∀ (e : Fin n) (f : Fin C), updK (ix2 (Fin.castLE hnm e) f) = updR (ix2 e f))
    (hzero : ∀ (e : Fin m) (f : Fin C), n ≤ e.val → updK (ix2 e f) = 0) :
    Ideal.hostScatterAdd (scat R C m wfK) x idxK updK = Ideal.hostScatterAdd (scat R C n wfR) x idxR updR := by
  have hupd' : ∀ j : (⟨2, ![n, C]⟩ : Shape).Idx, updK (emb hnm j) = updR j := fun j => by
    obtain ⟨e, f, rfl⟩ : ∃ (e : Fin n) (f : Fin C), j = ix2 e f := ⟨j 0, j 1, eq_ix2 j⟩
    exact hupd e f
  funext i
  unfold Ideal.hostScatterAdd
  refine congrArg (fun t => x i + t) ?_
  symm
  refine Finset.sum_bij_ne_zero (fun j _ _ => emb hnm j) (fun j hj _ => ?_) (fun a _ _ b _ _ h => emb_injective hnm h)
    (fun b hb hb0 => ?_) (fun j _ _ => (hupd' j).symm)
  · rw [Finset.mem_filter] at hj ⊢
    exact ⟨Finset.mem_univ _, (resultIdx?_emb hnm wfK wfR idxK idxR hidx j).trans hj.2⟩
  · obtain ⟨e, f, rfl⟩ : ∃ (e : Fin m) (f : Fin C), b = ix2 e f := ⟨b 0, b 1, eq_ix2 b⟩
    have he : e.val < n := Nat.lt_of_not_le fun h => hb0 (hzero e f h)
    have hemb : emb hnm (ix2 (⟨e.val, he⟩ : Fin n) f) = ix2 e f := rfl
    refine ⟨ix2 (⟨e.val, he⟩ : Fin n) f, ?_, ?_, hemb⟩
    · rw [Finset.mem_filter] at hb ⊢
      refine ⟨Finset.mem_univ _, ?_⟩
      rw [← resultIdx?_emb hnm wfK wfR idxK idxR hidx, hemb]
      exact hb.2
    · rw [← hupd', hemb]; exact hb0

end Pad

/-! ## A tail pad, a column and a spread column, read at an index -/

section Layout
variable {α : Type}

/-- An array of n entries padded at its end to m entries reads the array below n … -/
theorem pad_tail_apply_lt {n m k : ℕ} (x : (⟨1, ![n]⟩ : Shape).Idx → α) {u : Shape} (v : u.Idx → α)
    (h : (⟨1, ![n]⟩ : Shape).Pads (![0] : Fin 1 → ℕ) ![k] ![0] ⟨1, ![m]⟩) (hu : 0 < u.numel) (hnm : n ≤ m) (e : Fin n) :
    pad ⟨1, ![m]⟩ ![0] ![k] ![0] x v h hu (ix1 (Fin.castLE hnm e)) = x (ix1 e) := by
  refine pad_apply_of_inside _ _ _ x v h hu _ (ix1 e) fun a => ?_
  match a with
  | ⟨0, _⟩ =>
    show e.val = 0 + e.val * (0 + 1)
    omega

/-- … and the padding value from n on. -/
theorem pad_tail_apply_ge {n m k : ℕ} (x : (⟨1, ![n]⟩ : Shape).Idx → α) {u : Shape} (v : u.Idx → α)
    (h : (⟨1, ![n]⟩ : Shape).Pads (![0] : Fin 1 → ℕ) ![k] ![0] ⟨1, ![m]⟩) (hu : 0 < u.numel) (e : Fin m) (he : n ≤ e.val) :
    pad ⟨1, ![m]⟩ ![0] ![k] ![0] x v h hu (ix1 e) = v (Shape.Idx.first hu) := by
  refine pad_apply_of_not_inside _ _ _ x v h hu _ (0 : Fin 1) fun hin => ?_
  have h2 : (e.val - 0) / (0 + 1) < n := hin.2.2
  omega

/-- An array [m] laid out as the column [m, 1] reads, at (e, u), the array at e. -/
theorem col_apply {m : ℕ} (v : (⟨1, ![m]⟩ : Shape).Idx → α)
    (h : (⟨1, ![m]⟩ : Shape).BroadcastsInDim ⟨2, ![m, 1]⟩ (![0] : Fin 1 → Fin 2)) (e : Fin m) (u : Fin 1) :
    broadcastInDim ⟨2, ![m, 1]⟩ ![0] h v (ix2 e u) = v (ix1 e) := by
  refine broadcastInDim_apply _ h v _ (ix1 e) fun a => ?_
  match a with
  | ⟨0, _⟩ =>
    show e.val = if m = 1 then 0 else e.val
    split
    · have := e.isLt; omega
    · rfl

/-- A column [n, 1] spread over [n, C] reads, at (e, f), the column's entry of row e. -/
theorem spread_apply {n C : ℕ} (v : (⟨2, ![n, 1]⟩ : Shape).Idx → α)
    (h : (⟨2, ![n, 1]⟩ : Shape).BroadcastsInDim ⟨2, ![n, C]⟩ (![0, 1] : Fin 2 → Fin 2)) (e : Fin n) (f : Fin C) :
    broadcastInDim ⟨2, ![n, C]⟩ ![0, 1] h v (ix2 e f) = v (ix2 e (0 : Fin 1)) := by
  refine broadcastInDim_apply _ h v _ (ix2 e (0 : Fin 1)) fun a => ?_
  match a with
  | ⟨0, _⟩ =>
    show e.val = if n = 1 then 0 else e.val
    split
    · have := e.isLt; omega
    · rfl
  | ⟨1, _⟩ => rfl

end Layout

/-- The gather read at (e, f), the row number of edge e given by name. -/
theorem gat_apply_of_row {α : Type} {R C m w : ℕ}
    (wf : GatherDims.WF ⟨2, ![R, C]⟩ ⟨2, ![m, 1]⟩ ⟨2, ![m, C]⟩ [1] [0] [] [0] [] 1 ![1, C]) (hR : 0 < R)
    (x : (⟨2, ![R, C]⟩ : Shape).Idx → α) (idx : IVec ⟨2, ![m, 1]⟩ w) (e : Fin m) (f : Fin C) (r : BitVec w)
    (hr : idx (ix2 e (0 : Fin 1)) = r) :
    Host.gather (gat R C m wf) x idx (ix2 e f) = x (ix2 (⟨min r.toInt.toNat (R - 1), by omega⟩ : Fin R) f) := by
  subst hr
  exact gat_apply wf hR x idx e f

/-! ## The two programs' pieces at an index -/

section Pieces
open Cert.Spec

theorem hnm : 3000000 ≤ 3014656 := by omega

/-- A row number wrapped by the table's 100,000 rows when negative. -/
def wrap (v : BitVec 32) : BitVec 32 := Scalar.select (IntOp.cmpi .slt v 0#32) (IntOp.addi v 100000#32) v

theorem padI_apply_lt (a : IVec ⟨1, ![3000000]⟩ 32) (e : Fin 3000000) : K.padI a (ix1 (Fin.castLE hnm e)) = a (ix1 e) :=
  pad_tail_apply_lt a _ _ _ hnm e

theorem padF_apply_lt (a : FVec Ideal ⟨1, ![3000000]⟩ .f32) (e : Fin 3000000) :
    K.padF (F := Ideal) a (ix1 (Fin.castLE hnm e)) = a (ix1 e) :=
  pad_tail_apply_lt a _ _ _ hnm e

theorem padF_apply_ge (a : FVec Ideal ⟨1, ![3000000]⟩ .f32) (e : Fin 3014656) (he : 3000000 ≤ e.val) :
    K.padF (F := Ideal) a (ix1 e) = 0 :=
  (pad_tail_apply_ge a _ _ _ e he).trans Ideal.ofBits_zero_f32

theorem rowsK_apply (s : IVec ⟨1, ![3014656]⟩ 32) (e : Fin 3014656) (u : Fin 1) : K.rows s (ix2 e u) = wrap (s (ix1 e)) :=
  col_apply _ _ e u

theorem rowsR_apply (s : IVec ⟨1, ![3000000]⟩ 32) (e : Fin 3000000) (u : Fin 1) : R.rows s (ix2 e u) = wrap (s (ix1 e)) :=
  col_apply _ _ e u

end Pieces

/-- The padded step is the unpadded step: an edge past the 3,000,000th carries weight `0`, so it adds `0 · x[0, ·] = 0`
    to row `0`; the edges before it read the same weight, the same source row and the same destination row. -/
theorem layer_eq (src dst : IVec Cert.ReferenceIdeal.S3000000 32) (val : FVec Ideal Cert.ReferenceIdeal.S3000000 .f32)
    (x : FVec Ideal Cert.ReferenceIdeal.S100000x64 .f32) :
    Cert.Spec.K.layer (F := Ideal) (Cert.Spec.K.padI src) (Cert.Spec.K.padI dst) (Cert.Spec.K.padF val) x
      = Cert.Spec.R.layer (F := Ideal) src dst val x := by
  unfold Cert.Spec.K.layer Cert.Spec.R.layer Host.scatterAdd
  rw [Ideal.hostScatterAdd_def, Ideal.hostScatterAdd_def]
  refine hostScatterAdd_pad (R := 100000) (C := 64) hnm _ _ _ _ _ _ _ (fun e => ?_) (fun e f => ?_) (fun e f he => ?_)
  · -- the destination rows
    exact (col_apply _ _ _ _).trans ((padI_apply_lt dst e).trans (col_apply _ _ _ _).symm)
  · -- the updates of the first 3,000,000 edges
    have hK : Host.gather Cert.KernelIdeal.gather_S100000x64_S3014656x1_S3014656x64_1_0_n_n_0_1_164 x
        (Cert.Spec.K.rows (Cert.Spec.K.padI src)) (ix2 (Fin.castLE hnm e) f)
          = x (ix2 (⟨min (wrap (src (ix1 e))).toInt.toNat (100000 - 1), by omega⟩ : Fin 100000) f) :=
      gat_apply_of_row _ (by omega) x _ _ f _ ((rowsK_apply _ _ _).trans (congrArg wrap (padI_apply_lt src e)))
    have hR : Host.gather Cert.ReferenceIdeal.gather_S100000x64_S3000000x1_S3000000x64_1_0_n_n_0_1_164 x
        (Cert.Spec.R.rows src) (ix2 e f)
          = x (ix2 (⟨min (wrap (src (ix1 e))).toInt.toNat (100000 - 1), by omega⟩ : Fin 100000) f) :=
      gat_apply_of_row _ (by omega) x _ e f _ (rowsR_apply _ _ _)
    show (broadcastInDim _ _ _ (Cert.Spec.K.padF (F := Ideal) val) (ix2 (Fin.castLE hnm e) (0 : Fin 1)) : EReal)
        * Host.gather _ x (Cert.Spec.K.rows (Cert.Spec.K.padI src)) (ix2 (Fin.castLE hnm e) f)
      = (broadcastInDim _ _ _ (broadcastInDim _ _ _ val) (ix2 e f) : EReal) * Host.gather _ x (Cert.Spec.R.rows src) (ix2 e f)
    rw [hK, hR, col_apply, padF_apply_lt, spread_apply, col_apply]
  · -- the updates of the padding edges
    show (broadcastInDim _ _ _ (Cert.Spec.K.padF (F := Ideal) val) (ix2 e (0 : Fin 1)) : EReal) * _ = 0
    rw [col_apply, padF_apply_ge val e he, zero_mul]

end Cert.LayerEq

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.ForwardEq.lean ====
/-
  The scoring kernel's stored column, laid out as a vector, is the reference's score.
-/
import proofs.«168877_j50294067036541_1_alg».proof.Proof.Spec
import proofs.«168877_j50294067036541_1_alg».proof.Proof.LibRowOps
import proofs.«168877_j50294067036541_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ForwardEq

open Idealize.ShloMosaic Idealize.ShloMosaic.ValueIdx

/-! ## Single operations read at a row, at the ideal values -/

section Generic
variable {α : Type}

/-- A column `[a, 1]` cast to the vector `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` laid out as the column `[a, 1]` by a `broadcast_in_dim` along axis 0 reads, at `(p, u)`, entry `p`. -/
theorem bcastInDim_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` spread over `[a, b]` by a `broadcast_in_dim` along both axes reads, at `(p, c)`, the column's entry of row `p`. -/
theorem bcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Generic

/-- The reduced index `p` with lane `k` put back is `(p, k)`. -/
theorem lift_ix1 {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) :=
  funext fun ax => Fin.ext (by
    match ax with
    | ⟨0, _⟩ => rfl
    | ⟨1, _⟩ => rfl)

/-- A maximum over the lanes (axis 1) of an `[a, b]` vector, read at row `p`: the fold of `max` from the accumulator's
    value over that row. -/
theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have hf : (src ∘ h.lift (ix1 p)) = fun k : Fin b => src (ix2 p k) := funext fun k => congrArg src (lift_ix1 h p k)
  exact congrArg (fun f => Finset.fold max (Ideal.ofBits φ acc) f (Finset.univ : Finset (Fin b))) hf

/-- The host's reduce with a maximum body over axis 1 of an `[a, b]` array, read at row `p`: the fold of `max` from the
    initial value over that row. -/
theorem hostRowMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  refine (Host.reduce_eq_fold_single FloatOps.maximumf x init h' h hu (ix1 p)).trans ?_
  have hf : (x ∘ h.lift (ix1 p)) = fun k : Fin b => x (ix2 p k) := funext fun k => congrArg x (lift_ix1 h p k)
  exact congrArg (fun f => Finset.fold max (init (Shape.Idx.first hu)) f (Finset.univ : Finset (Fin b))) hf

/-- The host's float sum over axis 1 of an `[a, b]` array, read at row `p`: the initial value plus the sum of that row. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  exact congrArg (_ + ·) (Finset.sum_congr rfl fun k _ => congrArg x (lift_ix1 h p k))

/-- The host's plain product `[M,K]·[K,N]`, read at `(p, c)`: the sum over `k` of `lhs (p, k) · rhs (k, c)`, as the
    kernel's matrix product into the zero accumulator is. -/
theorem hostDot_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    Host.dotGeneral (⟨[1], [0], [0], [1], [], [], wf⟩ : DotDims ⟨2, ![M, K]⟩ ⟨2, ![K, N]⟩ ⟨2, ![M, N]⟩) prec lhs rhs (ix2 p c)
      = ∑ k : Fin K, lhs (ix2 p k) * rhs (ix2 k c) := by
  refine Eq.trans ?_ (Cert.RowOps.matmul_apply wf prec lhs rhs p c)
  exact (Ideal.dotGeneral_apply _ prec .single lhs rhs (ix2 p c)).trans
    (Ideal.matmul_constant_zero_apply _ prec lhs rhs (ix2 p c)).symm

/-! ## The score of one row -/

/-- Row `b`'s maximum as both programs take it: `max` of the `-∞` word with the fold of `max` from that word over the row. -/
def rowMaxAt (P : FVec Ideal ⟨2, ![8192, 64]⟩ .f32) (b : Fin 8192) : EReal :=
  max (Ideal.ofBits .f32 0xFF800000#32)
    ((Finset.univ : Finset (Fin 64)).fold max (Ideal.ofBits .f32 0xFF800000#32) fun k => P (ix2 b k))

/-- The exponential of an entry shifted by its row's maximum. -/
def expAt (P : FVec Ideal ⟨2, ![8192, 64]⟩ .f32) (b : Fin 8192) (f : Fin 64) : EReal :=
  Ideal.exp (P (ix2 b f) - rowMaxAt P b)

/-- The softmax of row `b` of `P` at feature `f`. -/
def softAt (P : FVec Ideal ⟨2, ![8192, 64]⟩ .f32) (b : Fin 8192) (f : Fin 64) : EReal :=
  Ideal.div (expAt P b f) (∑ i : Fin 64, expAt P b i)

/-- The score of row `b`: the softmax of `P`'s row times the logistic of `Q`'s row, summed over the 64 features. -/
def rowScore (P Q : FVec Ideal ⟨2, ![8192, 64]⟩ .f32) (b : Fin 8192) : EReal :=
  ∑ f : Fin 64, softAt P b f * Ideal.logistic (Q (ix2 b f))

/-! ## The reference's host operations at a row -/

section Reference
open Cert.Spec

theorem ref_rowMax_apply (P : FVec Ideal ⟨2, ![8192, 64]⟩ .f32) (b : Fin 8192) (f : Fin 64) :
    R.rowMax (F := Ideal) P (ix2 b f) = rowMaxAt P b := by
  unfold R.rowMax
  refine (bcastInDim_a1_ab_apply _ _ b f).trans ?_
  refine (bcastInDim_a_a1_apply _ _ b 0).trans ?_
  refine (maximumf_apply _ _ (ix1 b)).trans ?_
  unfold rowMaxAt
  refine congrArg₂ max ?_ ?_
  · exact broadcastInDim_scalar_apply _ _ _
  · exact hostRowMax_apply P _ _ Cert.KernelIdeal.Gen.reduces_S8192x64_S8192 _ b

theorem ref_shiftedExp_apply (P : FVec Ideal ⟨2, ![8192, 64]⟩ .f32) (b : Fin 8192) (f : Fin 64) :
    R.shiftedExp (F := Ideal) P (ix2 b f) = expAt P b f := by
  unfold R.shiftedExp expAt
  show Ideal.exp (P (ix2 b f) - R.rowMax (F := Ideal) P (ix2 b f)) = _
  rw [ref_rowMax_apply]

theorem ref_softmax_apply (P : FVec Ideal ⟨2, ![8192, 64]⟩ .f32) (b : Fin 8192) (f : Fin 64) :
    R.softmax (F := Ideal) P (ix2 b f) = softAt P b f := by
  unfold R.softmax softAt
  refine (hostDivf_apply _ _ (ix2 b f)).trans ?_
  refine congrArg₂ Ideal.div (ref_shiftedExp_apply P b f) ?_
  refine (bcastInDim_a1_ab_apply _ _ b f).trans ?_
  refine (bcastInDim_a_a1_apply _ _ b 0).trans ?_
  refine (hostRowSum_apply _ _ _ Cert.KernelIdeal.Gen.reduces_S8192x64_S8192 _ b).trans ?_
  refine (congrArg (· + _) (Ideal.ofBits_zero_f32)).trans ?_
  rw [zero_add]
  exact Finset.sum_congr rfl fun i _ => ref_shiftedExp_apply P b i

theorem ref_sigmoid_apply (Q : FVec Ideal ⟨2, ![8192, 64]⟩ .f32) (b : Fin 8192) (f : Fin 64) :
    R.sigmoid (F := Ideal) Q (ix2 b f) = Ideal.logistic (Q (ix2 b f)) := by
  unfold R.sigmoid
  refine (hostDivf_apply _ _ (ix2 b f)).trans ?_
  unfold Ideal.logistic
  refine congrArg₂ Ideal.div ?_ ?_
  · exact (broadcastInDim_scalar_apply _ _ _).trans Ideal.ofBits_one_f32
  · refine (addf_apply _ _ (ix2 b f)).trans ?_
    refine congrArg₂ (· + ·) ?_ rfl
    exact (broadcastInDim_scalar_apply _ _ _).trans Ideal.ofBits_one_f32

theorem ref_score_apply (u it : FVec Ideal ⟨2, ![8192, 64]⟩ .f32) (wuT wiT : FVec Ideal ⟨2, ![64, 64]⟩ .f32) (b : Fin 8192) :
    R.score (F := Ideal) u it wuT wiT (ix1 b)
      = rowScore (Host.dotGeneral Cert.ReferenceIdeal.dot_S8192x64_S64x64_S8192x64_1_0_0_1_n_n none u wuT)
          (Host.dotGeneral Cert.ReferenceIdeal.dot_S8192x64_S64x64_S8192x64_1_0_0_1_n_n none it wiT) b := by
  unfold R.score rowScore
  refine (hostRowSum_apply _ _ _ Cert.KernelIdeal.Gen.reduces_S8192x64_S8192 _ b).trans ?_
  refine (congrArg (· + _) (Ideal.ofBits_zero_f32)).trans ?_
  rw [zero_add]
  refine Finset.sum_congr rfl fun f _ => ?_
  refine (mulf_apply _ _ (ix2 b f)).trans ?_
  exact congrArg₂ (· * ·) (ref_softmax_apply _ b f) (ref_sigmoid_apply _ b f)

end Reference

/-! ## The kernel's vector operations at a row -/

section Kernel
open Cert.KernelIdeal Cert.KernelIdeal.Gen

/-- A projection as the kernel takes it: both operands cast to their own shapes and narrowed (the identity at the ideal
    values), multiplied into the zero accumulator. -/
def kProj (x : FVec Ideal S8192x64 .f32) (w : FVec Ideal S64x64 .f32) : FVec Ideal S8192x64 .f32 :=
  matmul dot_S8192x64_S64x64_S8192x64_1_0_0_1_n_n none
    (truncf .bf16 (shapeCast S8192x64 x shapeCasts_S8192x64_S8192x64) bitsLt_bf16_f32)
    (truncf .bf16 (shapeCast S64x64 w shapeCasts_S64x64_S64x64) bitsLt_bf16_f32)
    (constant S8192x64 .f32 0x00000000#32)

/-- The row maxima spread back over the lanes, as the kernel computes them. -/
def kMax (P : FVec Ideal S8192x64 .f32) : FVec Ideal S8192x64 .f32 :=
  broadcastTo S8192x64 (shapeCast S8192x1
    (maximumf (broadcast S8192 (Scalar.ofBits (F := Ideal) .f32 0xFF800000#32))
      (multiReduction .maximumf [1] S8192 P 0xFF800000#32 reduces_S8192x64_S8192 (.inl rfl) rfl))
    shapeCasts_S8192_S8192x1) broadcasts_S8192x1_S8192x64

/-- The exponentials of the shifted projection. -/
def kExp (P : FVec Ideal S8192x64 .f32) : FVec Ideal S8192x64 .f32 := exp (subf P (kMax P))

/-- The exponentials divided by their lane sums. -/
def kSoft (P : FVec Ideal S8192x64 .f32) : FVec Ideal S8192x64 .f32 :=
  divf (kExp P) (broadcastTo S8192x64 (shapeCast S8192x1
    (multiReduction .add [1] S8192 (kExp P) 0x00000000#32 reduces_S8192x64_S8192 (.inl rfl) rfl)
    shapeCasts_S8192_S8192x1) broadcasts_S8192x1_S8192x64)

/-- The stored column: the lane sums of softmax times logistic. -/
def kTail (P Q : FVec Ideal S8192x64 .f32) : FVec Ideal S8192x1 .f32 :=
  shapeCast S8192x1
    (multiReduction .add [1] S8192 (mulf (kSoft P) (logistic Q)) 0x00000000#32 reduces_S8192x64_S8192 (.inl rfl) rfl)
    shapeCasts_S8192_S8192x1

/-- The kernel's payload is that chain applied to its two projections. -/
theorem k3_pay1_eq (u it : FVec Ideal S8192x64 .f32) (wuT wiT : FVec Ideal S64x64 .f32) :
    k3_pay1 (F := Ideal) u it wuT wiT = kTail (kProj u wuT) (kProj it wiT) := rfl

theorem kMax_apply (P : FVec Ideal S8192x64 .f32) (b : Fin 8192) (f : Fin 64) : kMax P (ix2 b f) = rowMaxAt P b := by
  unfold kMax
  refine (Cert.RowOps.broadcastTo_a1_ab_apply _ _ b f).trans ?_
  refine (Cert.RowOps.shapeCast_a_a1_apply _ _ b 0).trans ?_
  refine (maximumf_apply _ _ (ix1 b)).trans ?_
  unfold rowMaxAt
  refine congrArg₂ max rfl ?_
  exact laneMax_apply P _ _ _ _ b

theorem kExp_apply (P : FVec Ideal S8192x64 .f32) (b : Fin 8192) (f : Fin 64) : kExp P (ix2 b f) = expAt P b f := by
  unfold kExp expAt
  show Ideal.exp (P (ix2 b f) - kMax P (ix2 b f)) = _
  rw [kMax_apply]

theorem kSoft_apply (P : FVec Ideal S8192x64 .f32) (b : Fin 8192) (f : Fin 64) : kSoft P (ix2 b f) = softAt P b f := by
  unfold kSoft softAt
  refine (divf_apply _ _ (ix2 b f)).trans ?_
  refine congrArg₂ Ideal.div (kExp_apply P b f) ?_
  refine (Cert.RowOps.rowSum_spread_apply (kExp P) _ _ _ _ _ _ b f).trans ?_
  exact Finset.sum_congr rfl fun i _ => kExp_apply P b i

theorem kTail_apply (P Q : FVec Ideal S8192x64 .f32) (b : Fin 8192) : kTail P Q (ix2 b (0 : Fin 1)) = rowScore P Q b := by
  unfold kTail rowScore
  refine (Cert.RowOps.shapeCast_a_a1_apply _ _ b 0).trans ?_
  refine (Cert.RowOps.laneSum_apply _ _ _ _ _ b).trans ?_
  refine Finset.sum_congr rfl fun f _ => ?_
  refine (mulf_apply _ _ (ix2 b f)).trans ?_
  exact congrArg₂ (· * ·) (kSoft_apply P b f) rfl

/-- The kernel's projection is the host's product: entry `(p, c)` of both is `Σ k, x (p, k) · w (k, c)`. -/
theorem kProj_eq (x : FVec Ideal S8192x64 .f32) (w : FVec Ideal S64x64 .f32) :
    kProj x w = Host.dotGeneral Cert.ReferenceIdeal.dot_S8192x64_S64x64_S8192x64_1_0_0_1_n_n none x w := by
  funext j
  obtain ⟨p, c, rfl⟩ : ∃ (p : Fin 8192) (c : Fin 64), j = ix2 p c := ⟨j 0, j 1, eq_ix2 j⟩
  unfold kProj
  rw [shapeCast_self, shapeCast_self]
  refine Eq.trans (?_ : _ = ∑ k : Fin 64, x (ix2 p k) * w (ix2 k c)) ?_
  · exact Cert.RowOps.matmul_apply dot_S8192x64_S64x64_S8192x64_1_0_0_1_n_n_wf none
      (truncf .bf16 x bitsLt_bf16_f32) (truncf .bf16 w bitsLt_bf16_f32) p c
  · exact (hostDot_apply _ none x w p c).symm

end Kernel

/-- Row by row both sides are `Σ_f softmax(u · wuT)[b, f] · logistic(it · wiT)[b, f]`: the kernel's matrix products into a
    zero accumulator are the host's contractions, its lane maximum and lane sums are the host's reductions, and its
    logistic is `1 / (1 + exp (−q))`. -/
theorem forward_eq (u it : FVec Ideal Cert.KernelIdeal.S8192x64 .f32) (wuT wiT : FVec Ideal Cert.KernelIdeal.S64x64 .f32) :
    shapeCast Cert.KernelIdeal.S8192 (Cert.KernelIdeal.Gen.k3_pay1 (F := Ideal) u it wuT wiT) Cert.KernelIdeal.Gen.shapeCasts_S8192x1_S8192
      = Cert.Spec.R.score (F := Ideal) u it wuT wiT := by
  funext j
  obtain ⟨b, rfl⟩ : ∃ b : Fin 8192, j = ix1 b := ⟨j 0, eq_ix1 j⟩
  refine (shapeCast_a1_a_apply _ _ b).trans ?_
  rw [k3_pay1_eq, kTail_apply, kProj_eq, kProj_eq]
  exact (ref_score_apply u it wuT wiT b).symm

end Cert.ForwardEq

end
-- ==== Proof.Bridge.lean ====
/-
  The two programs compute one function of the argument arrays.

  The kernel program's result buffer holds the scoring kernel's column, laid out as a vector, of the batch's rows of
  the average of four tables; the reference's result is its score of the same rows. The tables agree because a
  propagation step over the zero-padded edges is the step over the edges; the averaging, the row picking and the
  transposes are the same host operations on both sides; the scores agree row by row.
-/
import proofs.«168877_j50294067036541_1_alg».proof.Proof.KernelWalk2
import proofs.«168877_j50294067036541_1_alg».proof.Proof.RefValue
import proofs.«168877_j50294067036541_1_alg».proof.Proof.LayerEq
import proofs.«168877_j50294067036541_1_alg».proof.Proof.ForwardEq

set_option maxRecDepth 16384

noncomputable section

namespace Cert.Bridge

open Idealize.ShloMosaic Idealize.ShloMosaic.TcCoe Idealize.SL.Sem
open Cert.Spec

/-! ## The shared host operations are the same functions -/

theorem table_eq (eu : FVec Ideal Cert.KernelIdeal.S60000x64 .f32) (ei : FVec Ideal Cert.KernelIdeal.S40000x64 .f32) :
    K.table eu ei = R.table eu ei := rfl
theorem mean4_eq (a b c d : FVec Ideal Cert.KernelIdeal.S100000x64 .f32) : K.mean4 a b c d = R.mean4 a b c d := rfl
theorem userRows_eq (l : FVec Ideal Cert.KernelIdeal.S100000x64 .f32) (u : IVec Cert.KernelIdeal.S8192 32) :
    K.userRows l u = R.userRows l u := rfl
theorem itemRows_eq (l : FVec Ideal Cert.KernelIdeal.S100000x64 .f32) (u : IVec Cert.KernelIdeal.S8192 32) :
    K.itemRows l u = R.itemRows l u := rfl
theorem tr_eq (w : FVec Ideal Cert.KernelIdeal.S64x64 .f32) : K.tr w = R.tr w := rfl

/-! ## The averaged tables agree -/

section
open Cert.KernelIdeal
variable (m : (ℓ : Loc nD τ sig) → Buf (Elt Ideal) ℓ)

/-- One reference step on the kernel program's argument arrays. -/
abbrev stepR (c : Dev nD) (x : FVec Ideal S100000x64 .f32) : FVec Ideal S100000x64 .f32 :=
  R.layer (m ((c : Thread nD τ).loc main_arg2)) (m ((c : Thread nD τ).loc main_arg3)) (m ((c : Thread nD τ).loc main_arg4)) x

/-- The reference's node table on the kernel program's argument arrays. -/
abbrev tableR (c : Dev nD) : FVec Ideal S100000x64 .f32 :=
  R.table (m ((c : Thread nD τ).loc main_arg5)) (m ((c : Thread nD τ).loc main_arg6))

/-- The kernel program's average of its four tables is the reference's: each padded step is the unpadded step. -/
theorem light_eq (c : Dev nD) : Walk.light m c
    = R.mean4 (tableR m c) (stepR m c (tableR m c)) (stepR m c (stepR m c (tableR m c)))
        (stepR m c (stepR m c (stepR m c (tableR m c)))) := by
  have e1 : Walk.x1 m c = stepR m c (tableR m c) := Cert.LayerEq.layer_eq _ _ _ _
  have e2 : Walk.x2 m c = stepR m c (stepR m c (tableR m c)) :=
    (Cert.LayerEq.layer_eq _ _ _ _).trans (congrArg (stepR m c) e1)
  have e3 : Walk.x3 m c = stepR m c (stepR m c (stepR m c (tableR m c))) :=
    (Cert.LayerEq.layer_eq _ _ _ _).trans (congrArg (stepR m c) e2)
  show K.mean4 (Walk.x0 m c) (Walk.x1 m c) (Walk.x2 m c) (Walk.x3 m c) = _
  rw [e1, e2, e3]
  rfl

end

/-! ## The results agree -/

/-- The kernel program's result buffer after its run is the reference's result term, on memories that agree on the
    nine argument arrays. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v83 m' c
      = Cert.KernelIdeal.Gen.W15 m ρ c (Proc.devRef .tc Cert.KernelIdeal.main_v62) := by
  rw [Cert.ReferenceIdeal.RefValue.res_eq, Cert.KernelIdeal.Walk.W15_v62, Cert.ForwardEq.forward_eq, light_eq]
  unfold Cert.ReferenceIdeal.RefValue.light Cert.ReferenceIdeal.RefValue.step Cert.ReferenceIdeal.RefValue.x0
  rw [h0, h1, h2, h3, h4, h5, h6, h7, h8, userRows_eq, itemRows_eq, tr_eq, tr_eq]
  try rfl

end Cert.Bridge

end
-- ==== Proof.lean ====
/-
  The certificate of the LightGCN scoring kernel against its reference.

  Both programs propagate the node table three times along the weighted edges, average the four tables, pick the
  batch's user and item rows and score each pair. The kernel program pads the edge arrays with zero-weight edges and
  multiplies weight and gathered row in a tiled kernel; a zero-weight edge adds nothing, so each padded round equals the
  reference's round, and the scoring kernel's softmax · logistic row sums are the reference's score.
  The frames of the two printed kernels' programs are generated; the reference's frame is its generated run; the value
  of the kernel program is read off a second launch of the same segments whose post names the result buffer.
-/
import proofs.«168877_j50294067036541_1_alg».proof.Defs
import proofs.«168877_j50294067036541_1_alg».proof.Proof.Gen.Kernel
import proofs.«168877_j50294067036541_1_alg».proof.Proof.Gen.Kernel.Skeleton
import proofs.«168877_j50294067036541_1_alg».proof.Proof.Gen.Kernel.Launch
import proofs.«168877_j50294067036541_1_alg».proof.Proof.Gen.Kernel.Points
import proofs.«168877_j50294067036541_1_alg».proof.Proof.Gen.Kernel.Frame
import proofs.«168877_j50294067036541_1_alg».proof.Proof.Gen.KernelIdeal
import proofs.«168877_j50294067036541_1_alg».proof.Proof.Gen.KernelIdeal.Skeleton
import proofs.«168877_j50294067036541_1_alg».proof.Proof.Gen.KernelIdeal.Launch
import proofs.«168877_j50294067036541_1_alg».proof.Proof.Gen.KernelIdeal.Points
import proofs.«168877_j50294067036541_1_alg».proof.Proof.Gen.KernelIdeal.Frame
import proofs.«168877_j50294067036541_1_alg».proof.Proof.Gen.ReferenceIdeal
import proofs.«168877_j50294067036541_1_alg».proof.Proof.Gen.ReferenceIdeal.Run
import proofs.«168877_j50294067036541_1_alg».proof.Proof.Gen.Pre_finite_inputs
import proofs.«168877_j50294067036541_1_alg».proof.Proof.KernelRun
import proofs.«168877_j50294067036541_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no ledger entry to restate. -/
theorem preserves : Cert.preserves_Kernel_KernelIdeal := trivial

/-- From memories agreeing on the arguments both programs end with the same result: the kernel program's result buffer
    at its last boundary's contents, which is the reference's result term. -/
theorem algebraic : Cert.algebraic_KernelIdeal_ReferenceIdeal := by
  intro m ρ m' ρ' _ hagree
  refine ⟨fun c => Cert.KernelIdeal.Gen.W15 m ρ c (Proc.devRef .tc Cert.KernelIdeal.main_v62),
    Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  exact Cert.Bridge.result_eq m ρ m' c h0 h1 h2 h3 h4 h5 h6 h7 h8

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
